-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : IVec S2x640000 32) (main_arg2 : IVec S50000 32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S5000x128 : Shape := ⟨2, ![5000, 128]⟩
abbrev S640000x128 : Shape := ⟨2, ![640000, 128]⟩
abbrev S50000x1 : Shape := ⟨2, ![50000, 1]⟩
abbrev S1x128 : Shape := ⟨2, ![1, 128]⟩
abbrev S64 : Shape := ⟨1, ![64]⟩
abbrev S1x64 : Shape := ⟨2, ![1, 64]⟩
abbrev S50000x64 : Shape := ⟨2, ![50000, 64]⟩
abbrev S64x128 : Shape := ⟨2, ![64, 128]⟩
abbrev S5000x64 : Shape := ⟨2, ![5000, 64]⟩
abbrev S64x1 : Shape := ⟨2, ![64, 1]⟩

abbrev nBuf : Space → Nat
  | .hbm => 112
  | .vmem => 16
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .f32⟩
  | .hbm, ⟨12, _⟩ => ⟨S640000, .f32⟩
  | .hbm, ⟨13, _⟩ => ⟨S_, .f32⟩
  | .hbm, ⟨14, _⟩ => ⟨S50000, .f32⟩
  | .hbm, ⟨15, _⟩ => ⟨S640000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S640000, .i32⟩
  | .hbm, ⟨23, _⟩ => ⟨S640000, .i1⟩
  | .hbm, ⟨24, _⟩ => ⟨S_, .i32⟩
  | .hbm, ⟨25, _⟩ => ⟨S640000, .i32⟩
  | .hbm, ⟨26, _⟩ => ⟨S640000, .i32⟩
  | .hbm, ⟨27, _⟩ => ⟨S640000, .i32⟩
  | .hbm, ⟨28, _⟩ => ⟨S640000x1, .i32⟩
  | .hbm, ⟨29, _⟩ => ⟨S640000, .f32⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000, .f32⟩
  | .hbm, ⟨39, _⟩ => ⟨S640000, .f32⟩
  | .hbm, ⟨40, _⟩ => ⟨S50000, .f32⟩
  | .hbm, ⟨41, _⟩ => ⟨S50000x128, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x128, .f32⟩
  | .hbm, ⟨51, _⟩ => ⟨S640000x1, .f32⟩
  | .hbm, ⟨52, _⟩ => ⟨S640000x128, .f32⟩
  | .hbm, ⟨53, _⟩ => ⟨S640000x128, .f32⟩
  | .hbm, ⟨54, _⟩ => ⟨S_, .f32⟩
  | .hbm, ⟨55, _⟩ => ⟨S50000x128, .f32⟩
  | .hbm, ⟨56, _⟩ => ⟨S640000x1, .i32⟩
  | .hbm, ⟨57, _⟩ => ⟨S50000x128, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S640000, .i32⟩
  | .hbm, ⟨71, _⟩ => ⟨S640000, .i1⟩
  | .hbm, ⟨72, _⟩ => ⟨S_, .i32⟩
  | .hbm, ⟨73, _⟩ => ⟨S640000, .i32⟩
  | .hbm, ⟨74, _⟩ => ⟨S640000, .i32⟩
  | .hbm, ⟨75, _⟩ => ⟨S640000, .i32⟩
  | .hbm, ⟨76, _⟩ => ⟨S640000x1, .i32⟩
  | .hbm, ⟨77, _⟩ => ⟨S640000x128, .f32⟩
  | .hbm, ⟨78, _⟩ => ⟨S640000x1, .f32⟩
  | .hbm, ⟨79, _⟩ => ⟨S640000x128, .f32⟩
  | .hbm, ⟨80, _⟩ => ⟨S640000x128, .f32⟩
  | .hbm, ⟨81, _⟩ => ⟨S_, .f32⟩
  | .hbm, ⟨82, _⟩ => ⟨S50000x128, .f32⟩
  | .hbm, ⟨83, _⟩ => ⟨S640000x1, .i32⟩
  | .hbm, ⟨84, _⟩ => ⟨S50000x128, .f32⟩
  | .hbm, ⟨85, _⟩ => ⟨S50000x1, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S50000x1, .i32⟩
  | .hbm, ⟨93, _⟩ => ⟨S64, .i32⟩
  | .hbm, ⟨94, _⟩ => ⟨S1x64, .i32⟩
  | .hbm, ⟨95, _⟩ => ⟨S50000x64, .i32⟩
  | .hbm, ⟨96, _⟩ => ⟨S50000x64, .i32⟩
  | .hbm, ⟨97, _⟩ => ⟨S50000x64, .i1⟩
  | .hbm, ⟨98, _⟩ => ⟨S50000x64, .f32⟩
  | .hbm, ⟨99, _⟩ => ⟨S64x128, .f32⟩
  | .hbm, ⟨100, _⟩ => ⟨S_, .f32⟩
  | .hbm, ⟨101, _⟩ => ⟨S50000, .f32⟩
  | .hbm, ⟨102, _⟩ => ⟨S_, .f32⟩
  | .hbm, ⟨103, _⟩ => ⟨S64, .f32⟩
  | .hbm, ⟨104, _⟩ => ⟨S50000x1, .i32⟩
  | .hbm, ⟨105, _⟩ => ⟨S64, .f32⟩
  | .hbm, ⟨106, _⟩ => ⟨S_, .f32⟩
  | .hbm, ⟨107, _⟩ => ⟨S64, .f32⟩
  | .hbm, ⟨108, _⟩ => ⟨S64, .f32⟩
  | .hbm, ⟨109, _⟩ => ⟨S64x1, .f32⟩
  | .hbm, ⟨110, _⟩ => ⟨S64x128, .f32⟩
  | .hbm, ⟨111, _⟩ => ⟨S64x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x64, .f32⟩
  | .local _ .vmem, ⟨11, _⟩ => ⟨S5000x64, .f32⟩
  | .local _ .vmem, ⟨12, _⟩ => ⟨S5000x128, .f32⟩
  | .local _ .vmem, ⟨13, _⟩ => ⟨S5000x128, .f32⟩
  | .local _ .vmem, ⟨14, _⟩ => ⟨S64x128, .f32⟩
  | .local _ .vmem, ⟨15, _⟩ => ⟨S64x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_5 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_c_8 : Ref sig .tc := ⟨.hbm, 69, rfl⟩
abbrev main_v50 : Ref sig .tc := ⟨.hbm, 70, rfl⟩
abbrev main_v51 : Ref sig .tc := ⟨.hbm, 71, rfl⟩
abbrev main_c_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_10 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_11 : Ref sig .tc := ⟨.hbm, 100, rfl⟩
abbrev main_v78 : Ref sig .tc := ⟨.hbm, 101, rfl⟩
abbrev main_cst_12 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_13 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v15 : BitVec 1 := Scalar.cmpi .eq arg0 c9_i32
  let v16 : BitVec 32 := Scalar.extui v15
  let c0_i32_8 : BitVec 32 := 0#32
  let v17 : BitVec 1 := Scalar.cmpi .ne v16 c0_i32_8
  v17

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  bcast_S64_S1x64_1 : S64.BroadcastsInDim S1x64 (![1] : Fin 1 → Fin S1x64.rank)
  bcast_S50000x1_S50000x64_0_1 : S50000x1.BroadcastsInDim S50000x64 (![0, 1] : Fin 2 → Fin S50000x64.rank)
  bcast_S1x64_S50000x64_0_1 : S1x64.BroadcastsInDim S50000x64 (![0, 1] : Fin 2 → Fin S50000x64.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  scatter_S50000_S640000x1_S640000_n_0_0_1_wf : ScatterDims.WF S50000 S640000x1 S640000 [] [0] [0] 1
  gather_S50000_S640000x1_S640000_n_0_n_n_0_1_1_wf : GatherDims.WF S50000 S640000x1 S640000 [] [0] [] [0] [] 1 ![1]
  dot_S5000x128_S128x128_S5000x128_1_0_0_1_n_n_wf : DotDims.WF S5000x128 S128x128 S5000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S5000x64_S5000x128_S64x128_0_0_1_1_n_n_wf : DotDims.WF S5000x64 S5000x128 S64x128 [0] [0] [1] [1] [] []
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v76) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v77) S64x128.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000x1 : Shape := ⟨2, ![50000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩

abbrev nBuf : Space → Nat
  | .hbm => 142
  | .vmem => 0
  | .smem => 0
  | _ => 0

abbrev hbmTy0_0 (i : Nat) : BufTy := match i % 128 with
  | 0 => ⟨S50000x128, .f32⟩
  | 1 => ⟨S2x640000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S1x640000, .i32⟩
  | 8 => ⟨S640000, .i32⟩
  | 9 => ⟨S1x640000, .i32⟩
  | 10 => ⟨S640000, .i32⟩
  | 11 => ⟨S50000x128, .f32⟩
  | 12 => ⟨S_, .f32⟩
  | 13 => ⟨S640000, .f32⟩
  | 14 => ⟨S_, .f32⟩
  | 15 => ⟨S50000, .f32⟩
  | 16 => ⟨S640000x1, .i32⟩
  | 17 => ⟨S50000, .f32⟩
  | 18 => ⟨S_, .f32⟩
  | 19 => ⟨S50000, .f32⟩
  | 20 => ⟨S50000, .f32⟩
  | 21 => ⟨S50000, .f32⟩
  | 22 => ⟨S_, .i32⟩
  | 23 => ⟨S640000, .i32⟩
  | 24 => ⟨S640000, .i1⟩
  | 25 => ⟨S_, .i32⟩
  | 26 => ⟨S640000, .i32⟩
  | 27 => ⟨S640000, .i32⟩
  | 28 => ⟨S640000, .i32⟩
  | 29 => ⟨S640000x1, .i32⟩
  | 30 => ⟨S640000, .f32⟩
  | 31 => ⟨S_, .i32⟩
  | 32 => ⟨S640000, .i32⟩
  | 33 => ⟨S640000, .i1⟩
  | 34 => ⟨S_, .i32⟩
  | 35 => ⟨S640000, .i32⟩
  | 36 => ⟨S640000, .i32⟩
  | 37 => ⟨S640000, .i32⟩
  | 38 => ⟨S640000x1, .i32⟩
  | 39 => ⟨S640000, .f32⟩
  | 40 => ⟨S640000, .f32⟩
  | 41 => ⟨S_, .i32⟩
  | 42 => ⟨S640000, .i32⟩
  | 43 => ⟨S640000, .i1⟩
  | 44 => ⟨S_, .i32⟩
  | 45 => ⟨S640000, .i32⟩
  | 46 => ⟨S640000, .i32⟩
  | 47 => ⟨S640000, .i32⟩
  | 48 => ⟨S640000x1, .i32⟩
  | 49 => ⟨S640000x128, .f32⟩
  | 50 => ⟨S640000x1, .f32⟩
  | 51 => ⟨S640000x128, .f32⟩
  | 52 => ⟨S640000x128, .f32⟩
  | 53 => ⟨S_, .f32⟩
  | 54 => ⟨S50000x128, .f32⟩
  | 55 => ⟨S640000x1, .i32⟩
  | 56 => ⟨S50000x128, .f32⟩
  | 57 => ⟨S50000, .f32⟩
  | 58 => ⟨S50000x1, .f32⟩
  | 59 => ⟨S50000x128, .f32⟩
  | 60 => ⟨S50000x128, .f32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S1x640000, .i32⟩
  | 69 => ⟨S640000, .i32⟩
  | 70 => ⟨S1x640000, .i32⟩
  | 71 => ⟨S640000, .i32⟩
  | 72 => ⟨S50000x128, .f32⟩
  | 73 => ⟨S_, .f32⟩
  | 74 => ⟨S640000, .f32⟩
  | 75 => ⟨S_, .f32⟩
  | 76 => ⟨S50000, .f32⟩
  | 77 => ⟨S640000x1, .i32⟩
  | 78 => ⟨S50000, .f32⟩
  | 79 => ⟨S_, .f32⟩
  | 80 => ⟨S50000, .f32⟩
  | 81 => ⟨S50000, .f32⟩
  | 82 => ⟨S50000, .f32⟩
  | 83 => ⟨S_, .i32⟩
  | 84 => ⟨S640000, .i32⟩
  | 85 => ⟨S640000, .i1⟩
  | 86 => ⟨S_, .i32⟩
  | 87 => ⟨S640000, .i32⟩
  | 88 => ⟨S640000, .i32⟩
  | 89 => ⟨S640000, .i32⟩
  | 90 => ⟨S640000x1, .i32⟩
  | 91 => ⟨S640000, .f32⟩
  | 92 => ⟨S_, .i32⟩
  | 93 => ⟨S640000, .i32⟩
  | 94 => ⟨S640000, .i1⟩
  | 95 => ⟨S_, .i32⟩
  | 96 => ⟨S640000, .i32⟩
  | 97 => ⟨S640000, .i32⟩
  | 98 => ⟨S640000, .i32⟩
  | 99 => ⟨S640000x1, .i32⟩
  | 100 => ⟨S640000, .f32⟩
  | 101 => ⟨S640000, .f32⟩
  | 102 => ⟨S_, .i32⟩
  | 103 => ⟨S640000, .i32⟩
  | 104 => ⟨S640000, .i1⟩
  | 105 => ⟨S_, .i32⟩
  | 106 => ⟨S640000, .i32⟩
  | 107 => ⟨S640000, .i32⟩
  | 108 => ⟨S640000, .i32⟩
  | 109 => ⟨S640000x1, .i32⟩
  | 110 => ⟨S640000x128, .f32⟩
  | 111 => ⟨S640000x1, .f32⟩
  | 112 => ⟨S640000x128, .f32⟩
  | 113 => ⟨S640000x128, .f32⟩
  | 114 => ⟨S_, .f32⟩
  | 115 => ⟨S50000x128, .f32⟩
  | 116 => ⟨S640000x1, .i32⟩
  | 117 => ⟨S50000x128, .f32⟩
  | 118 => ⟨S50000, .f32⟩
  | 119 => ⟨S50000x1, .f32⟩
  | 120 => ⟨S50000x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S64x128, .f32⟩
  | _ => ⟨S50000x128, .f32⟩

abbrev hbmTy0_1 (i : Nat) : BufTy := match i % 128 with
  | 0 => ⟨S50000x1, .i32⟩
  | 1 => ⟨S64x128, .f32⟩
  | 2 => ⟨S_, .f32⟩
  | 3 => ⟨S50000, .f32⟩
  | 4 => ⟨S_, .f32⟩
  | 5 => ⟨S64, .f32⟩
  | 6 => ⟨S50000x1, .i32⟩
  | 7 => ⟨S64, .f32⟩
  | 8 => ⟨S_, .f32⟩
  | 9 => ⟨S64, .f32⟩
  | 10 => ⟨S64, .f32⟩
  | 11 => ⟨S64x1, .f32⟩
  | 12 => ⟨S64x128, .f32⟩
  | 13 => ⟨S64x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_11 : Ref sig .tc := ⟨.hbm, 83, rfl⟩
abbrev main_v61 : Ref sig .tc := ⟨.hbm, 84, rfl⟩
abbrev main_v62 : Ref sig .tc := ⟨.hbm, 85, rfl⟩
abbrev main_c_12 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_13 : Ref sig .tc := ⟨.hbm, 92, rfl⟩
abbrev main_v68 : Ref sig .tc := ⟨.hbm, 93, rfl⟩
abbrev main_v69 : Ref sig .tc := ⟨.hbm, 94, rfl⟩
abbrev main_c_14 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_c_15 : Ref sig .tc := ⟨.hbm, 102, rfl⟩
abbrev main_v76 : Ref sig .tc := ⟨.hbm, 103, rfl⟩
abbrev main_v77 : Ref sig .tc := ⟨.hbm, 104, rfl⟩
abbrev main_c_16 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_17 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_18 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_cst_19 : Ref sig .tc := ⟨.hbm, 130, rfl⟩
abbrev main_v100 : Ref sig .tc := ⟨.hbm, 131, rfl⟩
abbrev main_cst_20 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_21 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S50000 : S_.BroadcastsInDim S50000 (![] : Fin 0 → Fin S50000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  dot_S50000x128_S128x128_S50000x128_1_0_0_1_n_n_wf : DotDims.WF S50000x128 S128x128 S50000x128 [1] [0] [0] [1] [] []
  scatter_S50000_S640000x1_S640000_n_0_0_1_wf : ScatterDims.WF S50000 S640000x1 S640000 [] [0] [0] 1
  gather_S50000_S640000x1_S640000_n_0_n_n_0_1_1_wf : GatherDims.WF S50000 S640000x1 S640000 [] [0] [] [0] [] 1 ![1]
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.K.Lin0.lean ====
/-
  The first linear transform as a kernel region: one grid point takes a block of 5000 rows of the activations and the
  whole 128 x 128 weight matrix and writes the block's product. What each window's staging buffer holds after the
  body at a point, the body's triple, and the region's proof data at the contents the region is entered with.
-/
import proofs.«427407_j28939489640781_1_alg».proof.Proof.Gen.Kernel.Launch
import proofs.«427407_j28939489640781_1_alg».proof.Proof.Gen.Kernel.Skeleton
import proofs.«427407_j28939489640781_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.Value
import Idealize.ShloMosaic.Lib.Ring
import Idealize.ShloMosaic.Lib.Tactic

set_option maxRecDepth 16384

noncomputable section

namespace Cert.Kernel.Lin0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of activation rows at a point, at its literal type. -/
abbrev rows (c : Dev nD) (t : Fin cfg0.N) : Vec F S5000x128 .f32 := iblk V c 0 t
/-- The weight matrix as every point finds it, at its literal type. -/
abbrev wts (c : Dev nD) (t : Fin cfg0.N) : Vec F S128x128 .f32 := iblk V c 1 t

/-- An input window's current staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rX : Rect S5000x128 := Rect.unit (s := S5000x128) ![0, 0] S5000x128.size inb_S5000x128_S5000x128_0_0
abbrev rW : Rect S128x128 := Rect.unit (s := S128x128) ![0, 0] S128x128.size inb_S128x128_S128x128_0_0

/-- The output block after the body: the one store of the product of the loaded rows and weights. -/
def outBlk (x0 : Vec F S5000x128 .f32) (x1 : Vec F S128x128 .f32) : Vec F S5000x128 .f32 :=
  k0_pay1 x0 x1

theorem zero_off : (![0, 0] : Fin 2 → Nat) = fun _ => 0 := by funext a; fin_cases a <;> rfl

theorem outCover (p0 : Vec F S5000x128 .f32) (y : S5000x128.Idx) :
    ∃ pc ∈ ([⟨rX, p0⟩] : List (View.Piece (Elt F) S5000x128 .f32)), y ∈ pc.1.set :=
  View.cover_of_tiled [⟨rX, p0⟩] S5000x128.size (by rfl) y

set_option maxHeartbeats 1000000 in
/-- The body on whole staging memrefs: the inputs are read and handed back, the output buffer ends at the product. -/
theorem sound_kernel (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlk x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (outCover _)).trans ?_
  unfold outBlk
  rw [View.canon_unit_zero (S := S5000x128) zero_off]
  simp only [View.readAt_eq_ld, View.ld_unit_zero (S := S5000x128) zero_off, View.ld_unit_zero (S := S128x128) zero_off]

/-- The region's proof data on core `c`: the arrays as the region finds them; after the body each input's buffer at
    its block and the output's at the product of the blocks; the scoped rest and the generator register untouched. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outBlk (rows V c t) (wts V c t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outBlk (rows V c t) (wts V c t) := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (rows V c t) (wts V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W0, bigSep_W0]
  exact sound_body V c t

end Cert.Kernel.Lin0

end
-- ==== Proof.K.Lin1.lean ====
/-
  The second linear transform as a kernel region: one grid point takes a block of 5000 rows of the activations and the
  whole 128 x 128 weight matrix and writes the block's product. What each window's staging buffer holds after the
  body at a point, the body's triple, and the region's proof data at the contents the region is entered with.
-/
import proofs.«427407_j28939489640781_1_alg».proof.Proof.Gen.Kernel.Launch
import proofs.«427407_j28939489640781_1_alg».proof.Proof.Gen.Kernel.Skeleton
import proofs.«427407_j28939489640781_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.Value
import Idealize.ShloMosaic.Lib.Ring
import Idealize.ShloMosaic.Lib.Tactic

set_option maxRecDepth 16384

noncomputable section

namespace Cert.Kernel.Lin1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of activation rows at a point, at its literal type. -/
abbrev rows (c : Dev nD) (t : Fin cfg1.N) : Vec F S5000x128 .f32 := iblk V c 0 t
/-- The weight matrix as every point finds it, at its literal type. -/
abbrev wts (c : Dev nD) (t : Fin cfg1.N) : Vec F S128x128 .f32 := iblk V c 1 t

/-- An input window's current staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rX : Rect S5000x128 := Rect.unit (s := S5000x128) ![0, 0] S5000x128.size inb_S5000x128_S5000x128_0_0
abbrev rW : Rect S128x128 := Rect.unit (s := S128x128) ![0, 0] S128x128.size inb_S128x128_S128x128_0_0

/-- The output block after the body: the one store of the product of the loaded rows and weights. -/
def outBlk (x0 : Vec F S5000x128 .f32) (x1 : Vec F S128x128 .f32) : Vec F S5000x128 .f32 :=
  k1_pay1 x0 x1

theorem zero_off : (![0, 0] : Fin 2 → Nat) = fun _ => 0 := by funext a; fin_cases a <;> rfl

theorem outCover (p0 : Vec F S5000x128 .f32) (y : S5000x128.Idx) :
    ∃ pc ∈ ([⟨rX, p0⟩] : List (View.Piece (Elt F) S5000x128 .f32)), y ∈ pc.1.set :=
  View.cover_of_tiled [⟨rX, p0⟩] S5000x128.size (by rfl) y

set_option maxHeartbeats 1000000 in
/-- The body on whole staging memrefs: the inputs are read and handed back, the output buffer ends at the product. -/
theorem sound_kernel (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlk x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (outCover _)).trans ?_
  unfold outBlk
  rw [View.canon_unit_zero (S := S5000x128) zero_off]
  simp only [View.readAt_eq_ld, View.ld_unit_zero (S := S5000x128) zero_off, View.ld_unit_zero (S := S128x128) zero_off]

/-- The region's proof data on core `c`: the arrays as the region finds them; after the body each input's buffer at
    its block and the output's at the product of the blocks; the scoped rest and the generator register untouched. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outBlk (rows V c t) (wts V c t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = outBlk (rows V c t) (wts V c t) := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (rows V c t) (wts V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W1, bigSep_W1]
  exact sound_body V c t

end Cert.Kernel.Lin1

end
-- ==== Proof.K.Pool.lean ====
/-
  The pooling region: ten grid points, each taking a block of 5000 rows of the one-hot matrix (5000 x 64) and of the
  node features (5000 x 128); a 64 x 128 accumulator kept in scratch is zeroed at the first point, gains the block's
  transposed-one-hot times features at every point, and is copied to the output block at the last point. The
  accumulator's contents point by point, the body's triple in each of its three control cases, and the region's
  proof data with the accumulator carried in the region invariant.
-/
import proofs.«427407_j28939489640781_1_alg».proof.Proof.Gen.Kernel.Launch
import proofs.«427407_j28939489640781_1_alg».proof.Proof.Gen.Kernel.Skeleton
import proofs.«427407_j28939489640781_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Pool

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of one-hot rows at a point, at its literal type. -/
abbrev hot (c : Dev nD) (t : Fin cfg2.N) : Vec F S5000x64 .f32 := iblk V c 0 t
/-- The block of feature rows at a point, at its literal type. -/
abbrev feat (c : Dev nD) (t : Fin cfg2.N) : Vec F S5000x128 .f32 := iblk V c 1 t

theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rH : Rect S5000x64 := Rect.unit (s := S5000x64) ![0, 0] S5000x64.size inb_S5000x64_S5000x64_0_0
abbrev rX : Rect S5000x128 := Rect.unit (s := S5000x128) ![0, 0] S5000x128.size inb_S5000x128_S5000x128_0_0
abbrev rA : Rect S64x128 := Rect.unit (s := S64x128) ![0, 0] S64x128.size inb_S64x128_S64x128_0_0

theorem zero_off : (![0, 0] : Fin 2 → Nat) = fun _ => 0 := by funext a; fin_cases a <;> rfl

/-- The body's two branch conditions, from the grid coordinates: the point is the first; the point is the last. -/
abbrev isFirst (i : grid2.Coords) : Prop := (Scalar.cmpi .ne (Scalar.extui (Scalar.cmpi .eq (BitVec.ofNat 32 (i 0).val) 0#32)) 0#32) = 1#1
abbrev isLast (i : grid2.Coords) : Prop := k2_cond2 i = 1#1
theorem isFirst_iff : ∀ t : Fin cfg2.N, isFirst (grid2.coords t) ↔ t.val % 10 = 0 :=
  (by decide +kernel : ∀ t : Fin grid2.N, isFirst (grid2.coords t) ↔ t.val % 10 = 0)
theorem isLast_iff : ∀ t : Fin cfg2.N, isLast (grid2.coords t) ↔ t.val % 10 = 9 :=
  (by decide +kernel : ∀ t : Fin grid2.N, isLast (grid2.coords t) ↔ t.val % 10 = 9)

/-- Inputs are never idle; the output window is idle, and not written back, exactly at the points before the last. -/
theorem live_0 : ∀ t : Fin cfg2.N, cfg2.idle 0 (grid2.coords t) = false := by decide +kernel
theorem live_1 : ∀ t : Fin cfg2.N, cfg2.idle 1 (grid2.coords t) = false := by decide +kernel
theorem idle_2 : ∀ t : Fin cfg2.N, ¬ isLast (grid2.coords t) → cfg2.idle 2 (grid2.coords t) = true := by decide +kernel
theorem noflush_2 : ∀ t : Fin cfg2.N, ¬ isLast (grid2.coords t) → (cfg2.win 2).flush t = false := by decide +kernel
theorem live_2 : ∀ t : Fin cfg2.N, isLast (grid2.coords t) → cfg2.idle 2 (grid2.coords t) = false := by decide +kernel

/-- One accumulation step on whole blocks, and the accumulator's reset value. -/
def stepAcc (x0 : Vec F S5000x64 .f32) (x1 : Vec F S5000x128 .f32) (a : Vec F S64x128 .f32) : Vec F S64x128 .f32 :=
  k2_pay2 x0 x1 a
def zeroAcc : Vec F S64x128 .f32 := k2_pay1 (F := F)

theorem accCover (p0 : Vec F S64x128 .f32) (L : List (View.Piece (Elt F) S64x128 .f32)) (y : S64x128.Idx) :
    ∃ pc ∈ ((⟨rA, p0⟩ : View.Piece (Elt F) S64x128 .f32) :: L), y ∈ pc.1.set :=
  ⟨_, List.mem_cons_self, View.mem_set_unit_zero (S := S64x128) zero_off inb_S64x128_S64x128_0_0 y⟩

set_option maxHeartbeats 1000000 in
/-- At the first point: the accumulator, found at anything, ends at one step from zero; the output buffer is untouched. -/
theorem run_first (c : Dev nD) (E : Set ℕ) (i : grid2.Coords)
    (arg1 : Memref sig .tc .vmem S5000x64 .f32) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S64x128 .f32) (harg4 : arg4.IsWhole)
    (x0 : Vec F S5000x64 .f32) (x1 : Vec F S5000x128 .f32) (K : PUnit → sProp 𝕄)
    (h1 : isFirst i) (h2 : ¬ isLast i) (xo : Vec F S64x128 .f32) :
    iprop(owns (c : Thread nD τ) arg1 fullShare x0 ∗ owns (c : Thread nD τ) arg2 fullShare x1 ∗ owns (c : Thread nD τ) arg3 fullShare xo
        ∗ (∃ a, owns (c : Thread nD τ) arg4 fullShare a)
        ∗ (iprop(owns (c : Thread nD τ) arg1 fullShare x0 ∗ owns (c : Thread nD τ) arg2 fullShare x1 ∗ owns (c : Thread nD τ) arg3 fullShare xo
            ∗ owns (c : Thread nD τ) arg4 fullShare (stepAcc x0 x1 (zeroAcc (F := F)))) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%a, %f3, -, H3⟩, Hk⟩
  subst hf0; subst hf1; subst hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  refine (View.read_writes_eq_canon _ _ _ (accCover _ _)).trans ?_
  unfold stepAcc zeroAcc
  rw [View.canon_cons_unit_zero (S := S64x128) zero_off, View.readCov_unit_zero (S := S64x128) _ zero_off]
  simp only [View.readAt_eq_ld, View.ld_unit_zero (S := S5000x64) zero_off, View.ld_unit_zero (S := S5000x128) zero_off]

set_option maxHeartbeats 1000000 in
/-- At a point neither first nor last: the accumulator, found at `a`, ends one step further; the output buffer is untouched. -/
theorem run_mid (c : Dev nD) (E : Set ℕ) (i : grid2.Coords)
    (arg1 : Memref sig .tc .vmem S5000x64 .f32) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S64x128 .f32) (harg4 : arg4.IsWhole)
    (x0 : Vec F S5000x64 .f32) (x1 : Vec F S5000x128 .f32) (K : PUnit → sProp 𝕄)
    (h1 : ¬ isFirst i) (h2 : ¬ isLast i) (xo : Vec F S64x128 .f32) (a : Vec F S64x128 .f32) :
    iprop(owns (c : Thread nD τ) arg1 fullShare x0 ∗ owns (c : Thread nD τ) arg2 fullShare x1 ∗ owns (c : Thread nD τ) arg3 fullShare xo
        ∗ owns (c : Thread nD τ) arg4 fullShare a
        ∗ (iprop(owns (c : Thread nD τ) arg1 fullShare x0 ∗ owns (c : Thread nD τ) arg2 fullShare x1 ∗ owns (c : Thread nD τ) arg3 fullShare xo
            ∗ owns (c : Thread nD τ) arg4 fullShare (stepAcc x0 x1 a)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  refine (View.read_writes_eq_canon _ _ _ (accCover _ _)).trans ?_
  unfold stepAcc
  rw [View.canon_unit_zero (S := S64x128) zero_off]
  simp only [View.readAt_eq_ld, View.ld_unit_zero (S := S5000x64) zero_off, View.ld_unit_zero (S := S5000x128) zero_off,
    View.ld_unit_zero (S := S64x128) zero_off]

set_option maxHeartbeats 1000000 in
/-- At the last point: the accumulator ends one step further, and the output buffer, found at anything, ends at the same. -/
theorem run_last (c : Dev nD) (E : Set ℕ) (i : grid2.Coords)
    (arg1 : Memref sig .tc .vmem S5000x64 .f32) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S64x128 .f32) (harg4 : arg4.IsWhole)
    (x0 : Vec F S5000x64 .f32) (x1 : Vec F S5000x128 .f32) (K : PUnit → sProp 𝕄)
    (h1 : ¬ isFirst i) (h2 : isLast i) (a : Vec F S64x128 .f32) :
    iprop(owns (c : Thread nD τ) arg1 fullShare x0 ∗ owns (c : Thread nD τ) arg2 fullShare x1 ∗ (∃ xo, owns (c : Thread nD τ) arg3 fullShare xo)
        ∗ owns (c : Thread nD τ) arg4 fullShare a
        ∗ (iprop(owns (c : Thread nD τ) arg1 fullShare x0 ∗ owns (c : Thread nD τ) arg2 fullShare x1 ∗ owns (c : Thread nD τ) arg3 fullShare (stepAcc x0 x1 a)
            ∗ owns (c : Thread nD τ) arg4 fullShare (stepAcc x0 x1 a)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%xo, %f2, -, H2⟩, ⟨%f3, %hf3, H3⟩, Hk⟩
  subst hf0; subst hf1; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    refine (View.read_writes_eq_canon _ _ _ (accCover _ _)).trans ?_
    unfold stepAcc
    rw [View.canon_unit_zero (S := S64x128) zero_off, View.readCov_unit_zero (S := S64x128) _ zero_off]
    simp only [View.readAt_eq_ld, View.ld_unit_zero (S := S5000x64) zero_off, View.ld_unit_zero (S := S5000x128) zero_off,
      View.ld_unit_zero (S := S64x128) zero_off]
  iexists _; isplitr
  swap; · iexact H3
  ipureintro
  sl_unfold_words
  refine (View.read_writes_eq_canon _ _ _ (accCover _ _)).trans ?_
  unfold stepAcc
  rw [View.canon_unit_zero (S := S64x128) zero_off]
  simp only [View.readAt_eq_ld, View.ld_unit_zero (S := S5000x64) zero_off, View.ld_unit_zero (S := S5000x128) zero_off,
    View.ld_unit_zero (S := S64x128) zero_off]

/-! ## The accumulator point by point, and the region's proof data -/

/-- The grid point of a natural number (only numbers below ten are ever meant). -/
def pt (n : ℕ) : Fin cfg2.N := ⟨n % 10, by show n % 10 < grid2.N; rw [N_2]; exact Nat.mod_lt _ (by decide)⟩
theorem pt_val (t : Fin cfg2.N) : pt t.val = t :=
  Fin.ext (Nat.mod_eq_of_lt (lt_of_lt_of_eq t.isLt (show cfg2.N = 10 from N_2)))

/-- What the scratch accumulator holds after the body at point `n`: from zero, one step per point up to `n`. -/
def accAt (c : Dev nD) : ℕ → Vec F S64x128 .f32
  | 0 => stepAcc (hot V c (pt 0)) (feat V c (pt 0)) (zeroAcc (F := F))
  | n + 1 => stepAcc (hot V c (pt (n + 1))) (feat V c (pt (n + 1))) (accAt c n)

theorem accAt_first (c : Dev nD) (t : Fin cfg2.N) (h : t.val = 0) :
    accAt V c t.val = stepAcc (hot V c t) (feat V c t) (zeroAcc (F := F)) := by
  have e : pt 0 = t := by rw [← h]; exact pt_val t
  rw [h]; show stepAcc (hot V c (pt 0)) (feat V c (pt 0)) _ = _; rw [e]
theorem accAt_later (c : Dev nD) (t : Fin cfg2.N) (h : t.val ≠ 0) :
    accAt V c t.val = stepAcc (hot V c t) (feat V c t) (accAt V c (t.val - 1)) := by
  obtain ⟨n, hn⟩ := t
  cases n with
  | zero => exact absurd rfl h
  | succ n =>
    have e : pt (n + 1) = ⟨n + 1, hn⟩ := pt_val ⟨n + 1, hn⟩
    show stepAcc (hot V c (pt (n + 1))) (feat V c (pt (n + 1))) (accAt V c n) = _
    rw [e]; rfl

/-- The scratch accumulator as a memref. -/
abbrev scM : Memref sig .tc .vmem S64x128 .f32 := Memref.whole cc2_scratch0

/-- What the region invariant holds besides the accumulator: the other regions' staging buffers, each whole at some
    contents, and the generator register at some state. -/
def Rest (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ r, prngReg c r))

/-- The class's region invariant opened: the rest, and the accumulator at some contents. -/
theorem PhiA_open (c : Dev nD) : (Pipeline.ΦA spec2 c : sProp 𝕄) ⊢ iprop(Rest (F := F) c ∗ ∃ d, owns (c : Thread nD τ) scM fullShare d) := by
  unfold Pipeline.ΦA Rest; rw [scopedRest2_eq]; simp only [scM, owns_whole]
  iintro ⟨⟨H0, H1, H2, H3, H4, H5, H6, H7, H8, H9, HS⟩, Hg⟩
  isplitr [HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact Hg
  iexact HS
theorem PhiA_close (c : Dev nD) : iprop(Rest (F := F) c ∗ ∃ d, owns (c : Thread nD τ) scM fullShare d) ⊢ (Pipeline.ΦA spec2 c : sProp 𝕄) := by
  unfold Pipeline.ΦA Rest; rw [scopedRest2_eq]; simp only [scM, owns_whole]
  iintro ⟨⟨H0, H1, H2, H3, H4, H5, H6, H7, H8, H9, Hg⟩, HS⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  iexact Hg

/-- The region invariant before position `n`: before the first point the class's; afterwards the rest with the
    accumulator at what the point before left. -/
def PhiS (c : Dev nD) : ℕ → sProp 𝕄
  | 0 => Pipeline.ΦA spec2 c
  | n + 1 => iprop(Rest (F := F) c ∗ owns (c : Thread nD τ) scM fullShare (accAt V c n))

theorem PhiS_pos (c : Dev nD) (n : ℕ) (h : n ≠ 0) :
    PhiS V c n = iprop(Rest (F := F) c ∗ owns (c : Thread nD τ) scM fullShare (accAt V c (n - 1))) := by
  cases n with
  | zero => exact absurd rfl h
  | succ n => rfl

/-- The region's proof data on core `c`: the arrays as the region finds them; after the body each input's buffer at
    its block and the output's at the accumulator's contents; the accumulator carried in the invariant. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => accAt V c t.val
  Φ t := PhiS V c t.val
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = accAt V c t.val := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem Phi_castSucc (c : Dev nD) (t : Fin cfg2.N) : (dat V c).Φ t.castSucc = PhiS V c t.val := by
  dsimp only [dat]; simp only [Fin.coe_castSucc]
theorem Phi_succ (c : Dev nD) (t : Fin cfg2.N) :
    (dat V c).Φ t.succ = iprop(Rest (F := F) c ∗ owns (c : Thread nD τ) scM fullShare (accAt V c t.val)) := rfl

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 1600000 in
/-- The body at any point: which of the three cases the point is in is decided by its position. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).owesAt () t.succ = (dat V c).owesAt () t.castSucc from rfl, Phi_succ, Phi_castSucc]
  rw [show (dat V c).leavesExact 0 t = owns (c : Thread nD τ) (st2_0 t) fullShare ((dat V c).after 0 t) from by
    unfold Dat.leavesExact; rw [live_0 t], after_0]
  rw [show (dat V c).leavesExact 1 t = owns (c : Thread nD τ) (st2_1 t) fullShare ((dat V c).after 1 t) from by
    unfold Dat.leavesExact; rw [live_1 t], after_1]
  have hN : t.val < 10 := lt_of_lt_of_eq t.isLt (show cfg2.N = 10 from N_2)
  by_cases hf : t.val = 0
  · have h1 : isFirst (grid2.coords t) := (isFirst_iff t).mpr (by omega)
    have h2 : ¬ isLast (grid2.coords t) := fun h => by have := (isLast_iff t).mp h; omega
    rw [Dat.leavesExact_idle (dat V c) 2 t (idle_2 t h2) (noflush_2 t h2), accAt_first V c t hf, hf]
    rw [show PhiS V c 0 = Pipeline.ΦA spec2 c from rfl]
    iintro ⟨HΦ, Ho, ⟨%d0, H0⟩, ⟨%d1, H1⟩, ⟨%d2, H2⟩⟩
    ihave HΦ' := (PhiA_open (F := F) c) $$ HΦ
    icases HΦ' with ⟨HR, HS⟩
    iapply (run_first c Set.univ _ _ _ _ _ _ _ _ _ (hot V c t) (feat V c t) _ h1 h2 _)
    isplitl [H0]; · iexact H0
    isplitl [H1]; · iexact H1
    isplitl [H2]; · iexact H2
    isplitl [HS]; · iexact HS
    iintro ⟨H0, H1, H2, HS⟩
    isplitl [HR HS]
    · isplitl [HR]; · iexact HR
      iexact HS
    isplitl [Ho]; · iexact Ho
    isplitl [H0]; · iexact H0
    isplitl [H1]; · iexact H1
    iexists _; iexact H2
  · have h1 : ¬ isFirst (grid2.coords t) := fun h => by have := (isFirst_iff t).mp h; omega
    rw [PhiS_pos V c _ hf, accAt_later V c t hf]
    by_cases hl : t.val = 9
    · have h2 : isLast (grid2.coords t) := (isLast_iff t).mpr (by omega)
      rw [show (dat V c).leavesExact 2 t = owns (c : Thread nD τ) (st2_2 t) fullShare ((dat V c).after 2 t) from by
        unfold Dat.leavesExact; rw [live_2 t h2], after_2, accAt_later V c t hf]
      iintro ⟨⟨HR, HS⟩, Ho, ⟨%d0, H0⟩, ⟨%d1, H1⟩, ⟨%d2, H2⟩⟩
      iapply (run_last c Set.univ _ _ _ _ _ _ _ _ _ (hot V c t) (feat V c t) _ h1 h2 _)
      isplitl [H0]; · iexact H0
      isplitl [H1]; · iexact H1
      isplitl [H2]; · iexists _; iexact H2
      isplitl [HS]; · iexact HS
      iintro ⟨H0, H1, H2, HS⟩
      isplitl [HR HS]
      · isplitl [HR]; · iexact HR
        iexact HS
      isplitl [Ho]; · iexact Ho
      isplitl [H0]; · iexact H0
      isplitl [H1]; · iexact H1
      iexact H2
    · have h2 : ¬ isLast (grid2.coords t) := fun h => by have := (isLast_iff t).mp h; omega
      rw [Dat.leavesExact_idle (dat V c) 2 t (idle_2 t h2) (noflush_2 t h2)]
      iintro ⟨⟨HR, HS⟩, Ho, ⟨%d0, H0⟩, ⟨%d1, H1⟩, ⟨%d2, H2⟩⟩
      iapply (run_mid c Set.univ _ _ _ _ _ _ _ _ _ (hot V c t) (feat V c t) _ h1 h2 _ _)
      isplitl [H0]; · iexact H0
      isplitl [H1]; · iexact H1
      isplitl [H2]; · iexact H2
      isplitl [HS]; · iexact HS
      iintro ⟨H0, H1, H2, HS⟩
      isplitl [HR HS]
      · isplitl [HR]; · iexact HR
        iexact HS
      isplitl [Ho]; · iexact Ho
      isplitl [H0]; · iexact H0
      isplitl [H1]; · iexact H1
      iexists _; iexact H2

theorem body_obligation (c : Dev nD) : BodyObligation (dat (F := F) V c) (defs₀ (F := F)) Variants.none () Set.univ := fun t => by
  rw [bigSep_W2, bigSep_W2]
  exact sound_body V c t

/-- What the region is entered with is the invariant before the first point; after the last point the invariant
    gives the class's back, the accumulator's contents forgotten. -/
theorem Phi_in (c : Dev nD) : (Pipeline.ΦA spec2 c : sProp 𝕄) ⊢ (dat V c).Φ 0 := .rfl
theorem Phi_out (c : Dev nD) : (dat V c).Φ (Fin.last cfg2.N) ⊢ (Pipeline.ΦA spec2 c : sProp 𝕄) := by
  rw [show (dat V c).Φ (Fin.last cfg2.N) = PhiS V c (9 + 1) from by
    show PhiS V c (Fin.last cfg2.N).val = _; rw [Fin.val_last, show cfg2.N = 9 + 1 from N_2]]
  refine .trans ?_ (PhiA_close (F := F) c)
  rw [show PhiS V c (9 + 1) = iprop(Rest (F := F) c ∗ owns (c : Thread nD τ) scM fullShare (accAt V c 9)) from rfl]
  iintro ⟨HR, HS⟩
  isplitl [HR]; · iexact HR
  iexists _; iexact HS

end Cert.Kernel.Pool

end
-- ==== Proof.K.Run.lean ====
/-
  The whole program as a run: the buffers' contents at every boundary between a stretch of host operations and a kernel
  region, folded from the launch memory; each region entered at the contents the items before it leave and left with its
  output array at what its write-backs fold to; and the run's end state: every argument as launched, the result buffer at
  the fold's last contents.
-/
import proofs.«427407_j28939489640781_1_alg».proof.Proof.K.Lin0
import proofs.«427407_j28939489640781_1_alg».proof.Proof.K.Lin1
import proofs.«427407_j28939489640781_1_alg».proof.Proof.K.Pool
import proofs.«427407_j28939489640781_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the first stretch of host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (the inputs as entered, the output's write-backs folded),
    every other buffer as entered. -/
def W2 (c : Dev nD) : Valuation τ sig (Elt F) :=
  Pipeline.withArrays spec0 c (W1 m c) fun w => (Lin0.dat (V1 m) c).arrAt w cfg0.N
theorem W2_arr (c : Dev nD) (w : Fin cfg0.W) :
    W2 m c (Proc.devRef .tc (Pipeline.arrRef spec0 w)) = (Lin0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Lin0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- An input array of region 0 leaves it as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((Lin0.dat (V1 m) c).arrAt_in w hw _).trans (Lin0.A_eq (V1 m) c w))

/-- After the host operations between the first and the second linear transform (region 1's entry). -/
abbrev W3 : Dev nD → Valuation τ sig (Elt F) := fun c => StableHlo.after hostOps1 (W2 m c)
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b

/-- At region 1's exit: its arrays at what the pipeline leaves (the inputs as entered, the output's write-backs folded),
    every other buffer as entered. -/
def W5 (c : Dev nD) : Valuation τ sig (Elt F) :=
  Pipeline.withArrays spec1 c (W4 m c) fun w => (Lin1.dat (V4 m) c).arrAt w cfg1.N
theorem W5_arr (c : Dev nD) (w : Fin cfg1.W) :
    W5 m c (Proc.devRef .tc (Pipeline.arrRef spec1 w)) = (Lin1.dat (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (Lin1.dat (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)
/-- An input array of region 1 leaves it as it entered. -/
theorem W5_in (c : Dev nD) (w : Fin cfg1.W) (hw : (cfg1.win w).isOut = false) :
    W5 m c (Proc.devRef .tc (Pipeline.arrRef spec1 w)) = W4 m c (Proc.devRef .tc (Pipeline.arrRef spec1 w)) :=
  (W5_arr m c w).trans (((Lin1.dat (V4 m) c).arrAt_in w hw _).trans (Lin1.A_eq (V4 m) c w))

/-- After the host operations between the second linear transform and the pooling (region 2's entry). -/
abbrev W6 : Dev nD → Valuation τ sig (Elt F) := fun c => StableHlo.after hostOps2 (W5 m c)
abbrev V6 : (c : Dev nD) → (b : Ref sig .tc) → Buf (Elt F) ((c : Thread nD τ).loc b) := fun c b => W6 m c b

/-- At region 2's exit: its arrays at what the pipeline leaves (the inputs as entered, the output's write-backs folded),
    every other buffer as entered. -/
def W7 (c : Dev nD) : Valuation τ sig (Elt F) :=
  Pipeline.withArrays spec2 c (W6 m c) fun w => (Pool.dat (V6 m) c).arrAt w cfg2.N
theorem W7_arr (c : Dev nD) (w : Fin cfg2.W) :
    W7 m c (Proc.devRef .tc (Pipeline.arrRef spec2 w)) = (Pool.dat (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
abbrev V7 : (c : Dev nD) → (b : Ref sig .tc) → Buf (Elt F) ((c : Thread nD τ).loc b) := fun c b => W7 m c b
theorem hF2 (c : Dev nD) (w : Fin cfg2.W) : (Pool.dat (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)
/-- An input array of region 2 leaves it as it entered. -/
theorem W7_in (c : Dev nD) (w : Fin cfg2.W) (hw : (cfg2.win w).isOut = false) :
    W7 m c (Proc.devRef .tc (Pipeline.arrRef spec2 w)) = W6 m c (Proc.devRef .tc (Pipeline.arrRef spec2 w)) :=
  (W7_arr m c w).trans (((Pool.dat (V6 m) c).arrAt_in w hw _).trans (Pool.A_eq (V6 m) c w))

/-- After the last stretch of host operations: the end. -/
abbrev W8 : Dev nD → Valuation τ sig (Elt F) := fun c => StableHlo.after hostOps3 (W7 m c)

/-! ## The arguments end as launched -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := StableHlo.after_of_writes_sub hostOps3 _ hostOps3_writes (by decide)
    _ = W6 m c (Proc.devRef .tc main_arg0) := W7_of_ne m c main_arg0 (by decide)
    _ = W5 m c (Proc.devRef .tc main_arg0) := StableHlo.after_of_writes_sub hostOps2 _ hostOps2_writes (by decide)
    _ = W4 m c (Proc.devRef .tc main_arg0) := W5_of_ne m c main_arg0 (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := W2_in m c 0 rfl
    _ = W0 m c (Proc.devRef .tc main_arg0) := StableHlo.after_of_writes_sub hostOps0 _ hostOps0_writes (by decide)
    _ = m ((c : Thread nD τ).loc main_arg0) := rfl

theorem W8_main_arg1 (c : Dev nD) : W8 m c (Proc.devRef .tc main_arg1) = m ((c : Thread nD τ).loc main_arg1) :=
  calc W8 m c (Proc.devRef .tc main_arg1)
    _ = W7 m c (Proc.devRef .tc main_arg1) := StableHlo.after_of_writes_sub hostOps3 _ hostOps3_writes (by decide)
    _ = W6 m c (Proc.devRef .tc main_arg1) := W7_of_ne m c main_arg1 (by decide)
    _ = W5 m c (Proc.devRef .tc main_arg1) := StableHlo.after_of_writes_sub hostOps2 _ hostOps2_writes (by decide)
    _ = W4 m c (Proc.devRef .tc main_arg1) := W5_of_ne m c main_arg1 (by decide)
    _ = W3 m c (Proc.devRef .tc main_arg1) := StableHlo.after_of_writes_sub hostOps1_1 _ hostOps1_1_writes (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W8_main_arg2 (c : Dev nD) : W8 m c (Proc.devRef .tc main_arg2) = m ((c : Thread nD τ).loc main_arg2) :=
  calc W8 m c (Proc.devRef .tc main_arg2)
    _ = W7 m c (Proc.devRef .tc main_arg2) := StableHlo.after_of_writes_sub hostOps3 _ hostOps3_writes (by decide)
    _ = W6 m c (Proc.devRef .tc main_arg2) := W7_of_ne m c main_arg2 (by decide)
    _ = W5 m c (Proc.devRef .tc main_arg2) := StableHlo.after_of_writes_sub hostOps2 _ hostOps2_writes (by decide)
    _ = W4 m c (Proc.devRef .tc main_arg2) := W5_of_ne m c main_arg2 (by decide)
    _ = W3 m c (Proc.devRef .tc main_arg2) := StableHlo.after_of_writes_sub hostOps1_1 _ hostOps1_1_writes (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W8_main_arg3 (c : Dev nD) : W8 m c (Proc.devRef .tc main_arg3) = m ((c : Thread nD τ).loc main_arg3) :=
  calc W8 m c (Proc.devRef .tc main_arg3)
    _ = W7 m c (Proc.devRef .tc main_arg3) := StableHlo.after_of_writes_sub hostOps3 _ hostOps3_writes (by decide)
    _ = W6 m c (Proc.devRef .tc main_arg3) := W7_of_ne m c main_arg3 (by decide)
    _ = W5 m c (Proc.devRef .tc main_arg3) := StableHlo.after_of_writes_sub hostOps2 _ hostOps2_writes (by decide)
    _ = W4 m c (Proc.devRef .tc main_arg3) := W5_of_ne m c main_arg3 (by decide)
    _ = W3 m c (Proc.devRef .tc main_arg3) := StableHlo.after_of_writes_sub hostOps1_1 _ hostOps1_1_writes (by decide)
    _ = W2 m c (Proc.devRef .tc main_arg3) := StableHlo.after_of_writes_sub hostOps1 _ hostOps1_writes (by decide)
    _ = W1 m c (Proc.devRef .tc main_arg3) := W2_in m c 1 rfl
    _ = W0 m c (Proc.devRef .tc main_arg3) := StableHlo.after_of_writes_sub hostOps0 _ hostOps0_writes (by decide)
    _ = m ((c : Thread nD τ).loc main_arg3) := rfl

theorem W8_main_arg4 (c : Dev nD) : W8 m c (Proc.devRef .tc main_arg4) = m ((c : Thread nD τ).loc main_arg4) :=
  calc W8 m c (Proc.devRef .tc main_arg4)
    _ = W7 m c (Proc.devRef .tc main_arg4) := StableHlo.after_of_writes_sub hostOps3 _ hostOps3_writes (by decide)
    _ = W6 m c (Proc.devRef .tc main_arg4) := W7_of_ne m c main_arg4 (by decide)
    _ = W5 m c (Proc.devRef .tc main_arg4) := StableHlo.after_of_writes_sub hostOps2 _ hostOps2_writes (by decide)
    _ = W4 m c (Proc.devRef .tc main_arg4) := W5_of_ne m c main_arg4 (by decide)
    _ = W3 m c (Proc.devRef .tc main_arg4) := StableHlo.after_of_writes_sub hostOps1_1 _ hostOps1_1_writes (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W8_main_arg5 (c : Dev nD) : W8 m c (Proc.devRef .tc main_arg5) = m ((c : Thread nD τ).loc main_arg5) :=
  calc W8 m c (Proc.devRef .tc main_arg5)
    _ = W7 m c (Proc.devRef .tc main_arg5) := StableHlo.after_of_writes_sub hostOps3 _ hostOps3_writes (by decide)
    _ = W6 m c (Proc.devRef .tc main_arg5) := W7_of_ne m c main_arg5 (by decide)
    _ = W5 m c (Proc.devRef .tc main_arg5) := StableHlo.after_of_writes_sub hostOps2 _ hostOps2_writes (by decide)
    _ = W4 m c (Proc.devRef .tc main_arg5) := W5_in m c 1 rfl
    _ = W3 m c (Proc.devRef .tc main_arg5) := StableHlo.after_of_writes_sub hostOps1_1 _ hostOps1_1_writes (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W8_main_arg6 (c : Dev nD) : W8 m c (Proc.devRef .tc main_arg6) = m ((c : Thread nD τ).loc main_arg6) :=
  calc W8 m c (Proc.devRef .tc main_arg6)
    _ = W7 m c (Proc.devRef .tc main_arg6) := StableHlo.after_of_writes_sub hostOps3 _ hostOps3_writes (by decide)
    _ = W6 m c (Proc.devRef .tc main_arg6) := W7_of_ne m c main_arg6 (by decide)
    _ = W5 m c (Proc.devRef .tc main_arg6) := StableHlo.after_of_writes_sub hostOps2 _ hostOps2_writes (by decide)
    _ = W4 m c (Proc.devRef .tc main_arg6) := W5_of_ne m c main_arg6 (by decide)
    _ = W3 m c (Proc.devRef .tc main_arg6) := StableHlo.after_of_writes_sub hostOps1_1 _ hostOps1_1_writes (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Lin0.dat (V1 m) c
  | ⟨1, _⟩ => fun c => Lin1.dat (V4 m) c
  | ⟨2, _⟩ => fun c => Pool.dat (V6 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered from every unscoped buffer at `W1`, left at `W2`: its arrays
    split out of the unscoped buffers and put back at the exit contents; the generator register into the region invariant
    and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Lin0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from .rfl).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W4`, left at `W5`: its arrays
    split out of the unscoped buffers and put back at the exit contents; the generator register into the region invariant
    and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Lin1.body_obligation (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from .rfl).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W6`, left at `W7`: its arrays
    split out of the unscoped buffers and put back at the exit contents; the generator register into the region invariant
    and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Pool.body_obligation (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ (Pipeline.ΦA spec2 c : sProp 𝕄) from Pool.Phi_out (V6 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)),
    .region (reg2 m),
    .host (hseg hostOps3 hostOps3_sub hostOps3_fresh (W7 m)) ]
theorem main_run (c : Dev nD) : main (F := F) c = Pipeline.Seg.run (segs m) := (main_chain c).trans (by chain_rfl)

set_option backward.isDefEq.respectTransparency.types false in
/-- From any memory with zero counters every weakly fair execution terminates, nothing faulting, with the result buffer at
    the fold's last contents and every argument as launched. -/
theorem run_main (ρ : Dev nD → PrngReg) : θ_run defs (onTc (τ := τ) (main (F := F))) ⟨m, fun _ => 0, ρ⟩ (fun r => ∀ c : Dev nD,
      r.2.mem ((c.tc : Thread nD τ).loc main_v86) = W8 m c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W8 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c =>
      ⟨h c _ (mem_uc main_v86 (by decide)),
       (h c _ (mem_uc main_arg0 (by decide))).trans (W8_main_arg0 m c),
       (h c _ (mem_uc main_arg1 (by decide))).trans (W8_main_arg1 m c),
       (h c _ (mem_uc main_arg2 (by decide))).trans (W8_main_arg2 m c),
       (h c _ (mem_uc main_arg3 (by decide))).trans (W8_main_arg3 m c),
       (h c _ (mem_uc main_arg4 (by decide))).trans (W8_main_arg4 m c),
       (h c _ (mem_uc main_arg5 (by decide))).trans (W8_main_arg5 m c),
       (h c _ (mem_uc main_arg6 (by decide))).trans (W8_main_arg6 m c)⟩)

/-- The frame: every weakly fair execution terminates, nothing faulting, every argument as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_main m ρ)

end Cert.Kernel.Run

end
-- ==== Proof.KI.Lin0.lean ====
/-
  The first linear transform as a kernel region: one grid point takes a block of 5000 rows of the activations and the
  whole 128 x 128 weight matrix and writes the block's product. What each window's staging buffer holds after the
  body at a point, the body's triple, and the region's proof data at the contents the region is entered with.
-/
import proofs.«427407_j28939489640781_1_alg».proof.Proof.Gen.KernelIdeal.Launch
import proofs.«427407_j28939489640781_1_alg».proof.Proof.Gen.KernelIdeal.Skeleton
import proofs.«427407_j28939489640781_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.Value
import Idealize.ShloMosaic.Lib.Ring
import Idealize.ShloMosaic.Lib.Tactic

set_option maxRecDepth 16384

noncomputable section

namespace Cert.KernelIdeal.Lin0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The block of activation rows at a point, at its literal type. -/
abbrev rows (c : Dev nD) (t : Fin cfg0.N) : Vec F S5000x128 .f32 := iblk V c 0 t
/-- The weight matrix as every point finds it, at its literal type. -/
abbrev wts (c : Dev nD) (t : Fin cfg0.N) : Vec F S128x128 .f32 := iblk V c 1 t

/-- An input window's current staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rX : Rect S5000x128 := Rect.unit (s := S5000x128) ![0, 0] S5000x128.size inb_S5000x128_S5000x128_0_0
abbrev rW : Rect S128x128 := Rect.unit (s := S128x128) ![0, 0] S128x128.size inb_S128x128_S128x128_0_0

/-- The output block after the body: the one store of the product of the loaded rows and weights. -/
def outBlk (x0 : Vec F S5000x128 .f32) (x1 : Vec F S128x128 .f32) : Vec F S5000x128 .f32 :=
  k0_pay1 x0 x1

theorem zero_off : (![0, 0] : Fin 2 → Nat) = fun _ => 0 := by funext a; fin_cases a <;> rfl

theorem outCover (p0 : Vec F S5000x128 .f32) (y : S5000x128.Idx) :
    ∃ pc ∈ ([⟨rX, p0⟩] : List (View.Piece (Elt F) S5000x128 .f32)), y ∈ pc.1.set :=
  View.cover_of_tiled [⟨rX, p0⟩] S5000x128.size (by rfl) y

set_option maxHeartbeats 1000000 in
/-- The body on whole staging memrefs: the inputs are read and handed back, the output buffer ends at the product. -/
theorem sound_kernel (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlk x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (outCover _)).trans ?_
  unfold outBlk
  rw [View.canon_unit_zero (S := S5000x128) zero_off]
  simp only [View.readAt_eq_ld, View.ld_unit_zero (S := S5000x128) zero_off, View.ld_unit_zero (S := S128x128) zero_off]

/-- The region's proof data on core `c`: the arrays as the region finds them; after the body each input's buffer at
    its block and the output's at the product of the blocks; the scoped rest and the generator register untouched. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => outBlk (rows V c t) (wts V c t)
  Φ _ := Pipeline.ΦA spec0 c
  q _ := fullShare
  owed _ := 0

theorem A_eq (c : Dev nD) (w : Fin cfg0.W) : (dat V c).A w = V c (Pipeline.arrRef spec0 w) := by
  dsimp only [dat]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = outBlk (rows V c t) (wts V c t) := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (rows V c t) (wts V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W0, bigSep_W0]
  exact sound_body V c t

end Cert.KernelIdeal.Lin0

end
-- ==== Proof.KI.Lin1.lean ====
/-
  The second linear transform as a kernel region: one grid point takes a block of 5000 rows of the activations and the
  whole 128 x 128 weight matrix and writes the block's product. What each window's staging buffer holds after the
  body at a point, the body's triple, and the region's proof data at the contents the region is entered with.
-/
import proofs.«427407_j28939489640781_1_alg».proof.Proof.Gen.KernelIdeal.Launch
import proofs.«427407_j28939489640781_1_alg».proof.Proof.Gen.KernelIdeal.Skeleton
import proofs.«427407_j28939489640781_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.Value
import Idealize.ShloMosaic.Lib.Ring
import Idealize.ShloMosaic.Lib.Tactic

set_option maxRecDepth 16384

noncomputable section

namespace Cert.KernelIdeal.Lin1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The block of activation rows at a point, at its literal type. -/
abbrev rows (c : Dev nD) (t : Fin cfg1.N) : Vec F S5000x128 .f32 := iblk V c 0 t
/-- The weight matrix as every point finds it, at its literal type. -/
abbrev wts (c : Dev nD) (t : Fin cfg1.N) : Vec F S128x128 .f32 := iblk V c 1 t

/-- An input window's current staging buffer holds its block at every point, fetched there or not. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rX : Rect S5000x128 := Rect.unit (s := S5000x128) ![0, 0] S5000x128.size inb_S5000x128_S5000x128_0_0
abbrev rW : Rect S128x128 := Rect.unit (s := S128x128) ![0, 0] S128x128.size inb_S128x128_S128x128_0_0

/-- The output block after the body: the one store of the product of the loaded rows and weights. -/
def outBlk (x0 : Vec F S5000x128 .f32) (x1 : Vec F S128x128 .f32) : Vec F S5000x128 .f32 :=
  k1_pay1 x0 x1

theorem zero_off : (![0, 0] : Fin 2 → Nat) = fun _ => 0 := by funext a; fin_cases a <;> rfl

theorem outCover (p0 : Vec F S5000x128 .f32) (y : S5000x128.Idx) :
    ∃ pc ∈ ([⟨rX, p0⟩] : List (View.Piece (Elt F) S5000x128 .f32)), y ∈ pc.1.set :=
  View.cover_of_tiled [⟨rX, p0⟩] S5000x128.size (by rfl) y

set_option maxHeartbeats 1000000 in
/-- The body on whole staging memrefs: the inputs are read and handed back, the output buffer ends at the product. -/
theorem sound_kernel (c : Dev nD) (E : Set ℕ) (i : grid1.Coords)
    (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (outBlk x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (outCover _)).trans ?_
  unfold outBlk
  rw [View.canon_unit_zero (S := S5000x128) zero_off]
  simp only [View.readAt_eq_ld, View.ld_unit_zero (S := S5000x128) zero_off, View.ld_unit_zero (S := S128x128) zero_off]

/-- The region's proof data on core `c`: the arrays as the region finds them; after the body each input's buffer at
    its block and the output's at the product of the blocks; the scoped rest and the generator register untouched. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => outBlk (rows V c t) (wts V c t)
  Φ _ := Pipeline.ΦA spec1 c
  q _ := fullShare
  owed _ := 0

theorem A_eq (c : Dev nD) (w : Fin cfg1.W) : (dat V c).A w = V c (Pipeline.arrRef spec1 w) := by
  dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = outBlk (rows V c t) (wts V c t) := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t))

theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (rows V c t) (wts V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W1, bigSep_W1]
  exact sound_body V c t

end Cert.KernelIdeal.Lin1

end
-- ==== Proof.KI.Pool.lean ====
/-
  The pooling region: ten grid points, each taking a block of 5000 rows of the one-hot matrix (5000 x 64) and of the
  node features (5000 x 128); a 64 x 128 accumulator kept in scratch is zeroed at the first point, gains the block's
  transposed-one-hot times features at every point, and is copied to the output block at the last point. The
  accumulator's contents point by point, the body's triple in each of its three control cases, and the region's
  proof data with the accumulator carried in the region invariant.
-/
import proofs.«427407_j28939489640781_1_alg».proof.Proof.Gen.KernelIdeal.Launch
import proofs.«427407_j28939489640781_1_alg».proof.Proof.Gen.KernelIdeal.Skeleton
import proofs.«427407_j28939489640781_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The block of one-hot rows at a point, at its literal type. -/
abbrev hot (c : Dev nD) (t : Fin cfg2.N) : Vec F S5000x64 .f32 := iblk V c 0 t
/-- The block of feature rows at a point, at its literal type. -/
abbrev feat (c : Dev nD) (t : Fin cfg2.N) : Vec F S5000x128 .f32 := iblk V c 1 t

theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

abbrev rH : Rect S5000x64 := Rect.unit (s := S5000x64) ![0, 0] S5000x64.size inb_S5000x64_S5000x64_0_0
abbrev rX : Rect S5000x128 := Rect.unit (s := S5000x128) ![0, 0] S5000x128.size inb_S5000x128_S5000x128_0_0
abbrev rA : Rect S64x128 := Rect.unit (s := S64x128) ![0, 0] S64x128.size inb_S64x128_S64x128_0_0

theorem zero_off : (![0, 0] : Fin 2 → Nat) = fun _ => 0 := by funext a; fin_cases a <;> rfl

/-- The body's two branch conditions, from the grid coordinates: the point is the first; the point is the last. -/
abbrev isFirst (i : grid2.Coords) : Prop := (Scalar.cmpi .ne (Scalar.extui (Scalar.cmpi .eq (BitVec.ofNat 32 (i 0).val) 0#32)) 0#32) = 1#1
abbrev isLast (i : grid2.Coords) : Prop := k2_cond2 i = 1#1
theorem isFirst_iff : ∀ t : Fin cfg2.N, isFirst (grid2.coords t) ↔ t.val % 10 = 0 :=
  (by decide +kernel : ∀ t : Fin grid2.N, isFirst (grid2.coords t) ↔ t.val % 10 = 0)
theorem isLast_iff : ∀ t : Fin cfg2.N, isLast (grid2.coords t) ↔ t.val % 10 = 9 :=
  (by decide +kernel : ∀ t : Fin grid2.N, isLast (grid2.coords t) ↔ t.val % 10 = 9)

/-- Inputs are never idle; the output window is idle, and not written back, exactly at the points before the last. -/
theorem live_0 : ∀ t : Fin cfg2.N, cfg2.idle 0 (grid2.coords t) = false := by decide +kernel
theorem live_1 : ∀ t : Fin cfg2.N, cfg2.idle 1 (grid2.coords t) = false := by decide +kernel
theorem idle_2 : ∀ t : Fin cfg2.N, ¬ isLast (grid2.coords t) → cfg2.idle 2 (grid2.coords t) = true := by decide +kernel
theorem noflush_2 : ∀ t : Fin cfg2.N, ¬ isLast (grid2.coords t) → (cfg2.win 2).flush t = false := by decide +kernel
theorem live_2 : ∀ t : Fin cfg2.N, isLast (grid2.coords t) → cfg2.idle 2 (grid2.coords t) = false := by decide +kernel

/-- One accumulation step on whole blocks, and the accumulator's reset value. -/
def stepAcc (x0 : Vec F S5000x64 .f32) (x1 : Vec F S5000x128 .f32) (a : Vec F S64x128 .f32) : Vec F S64x128 .f32 :=
  k2_pay2 x0 x1 a
def zeroAcc : Vec F S64x128 .f32 := k2_pay1 (F := F)

theorem accCover (p0 : Vec F S64x128 .f32) (L : List (View.Piece (Elt F) S64x128 .f32)) (y : S64x128.Idx) :
    ∃ pc ∈ ((⟨rA, p0⟩ : View.Piece (Elt F) S64x128 .f32) :: L), y ∈ pc.1.set :=
  ⟨_, List.mem_cons_self, View.mem_set_unit_zero (S := S64x128) zero_off inb_S64x128_S64x128_0_0 y⟩

set_option maxHeartbeats 1000000 in
/-- At the first point: the accumulator, found at anything, ends at one step from zero; the output buffer is untouched. -/
theorem run_first (c : Dev nD) (E : Set ℕ) (i : grid2.Coords)
    (arg1 : Memref sig .tc .vmem S5000x64 .f32) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S64x128 .f32) (harg4 : arg4.IsWhole)
    (x0 : Vec F S5000x64 .f32) (x1 : Vec F S5000x128 .f32) (K : PUnit → sProp 𝕄)
    (h1 : isFirst i) (h2 : ¬ isLast i) (xo : Vec F S64x128 .f32) :
    iprop(owns (c : Thread nD τ) arg1 fullShare x0 ∗ owns (c : Thread nD τ) arg2 fullShare x1 ∗ owns (c : Thread nD τ) arg3 fullShare xo
        ∗ (∃ a, owns (c : Thread nD τ) arg4 fullShare a)
        ∗ (iprop(owns (c : Thread nD τ) arg1 fullShare x0 ∗ owns (c : Thread nD τ) arg2 fullShare x1 ∗ owns (c : Thread nD τ) arg3 fullShare xo
            ∗ owns (c : Thread nD τ) arg4 fullShare (stepAcc x0 x1 (zeroAcc (F := F)))) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%a, %f3, -, H3⟩, Hk⟩
  subst hf0; subst hf1; subst hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  refine (View.read_writes_eq_canon _ _ _ (accCover _ _)).trans ?_
  unfold stepAcc zeroAcc
  rw [View.canon_cons_unit_zero (S := S64x128) zero_off, View.readCov_unit_zero (S := S64x128) _ zero_off]
  simp only [View.readAt_eq_ld, View.ld_unit_zero (S := S5000x64) zero_off, View.ld_unit_zero (S := S5000x128) zero_off]

set_option maxHeartbeats 1000000 in
/-- At a point neither first nor last: the accumulator, found at `a`, ends one step further; the output buffer is untouched. -/
theorem run_mid (c : Dev nD) (E : Set ℕ) (i : grid2.Coords)
    (arg1 : Memref sig .tc .vmem S5000x64 .f32) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S64x128 .f32) (harg4 : arg4.IsWhole)
    (x0 : Vec F S5000x64 .f32) (x1 : Vec F S5000x128 .f32) (K : PUnit → sProp 𝕄)
    (h1 : ¬ isFirst i) (h2 : ¬ isLast i) (xo : Vec F S64x128 .f32) (a : Vec F S64x128 .f32) :
    iprop(owns (c : Thread nD τ) arg1 fullShare x0 ∗ owns (c : Thread nD τ) arg2 fullShare x1 ∗ owns (c : Thread nD τ) arg3 fullShare xo
        ∗ owns (c : Thread nD τ) arg4 fullShare a
        ∗ (iprop(owns (c : Thread nD τ) arg1 fullShare x0 ∗ owns (c : Thread nD τ) arg2 fullShare x1 ∗ owns (c : Thread nD τ) arg3 fullShare xo
            ∗ owns (c : Thread nD τ) arg4 fullShare (stepAcc x0 x1 a)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  sl_unfold_words
  refine (View.read_writes_eq_canon _ _ _ (accCover _ _)).trans ?_
  unfold stepAcc
  rw [View.canon_unit_zero (S := S64x128) zero_off]
  simp only [View.readAt_eq_ld, View.ld_unit_zero (S := S5000x64) zero_off, View.ld_unit_zero (S := S5000x128) zero_off,
    View.ld_unit_zero (S := S64x128) zero_off]

set_option maxHeartbeats 1000000 in
/-- At the last point: the accumulator ends one step further, and the output buffer, found at anything, ends at the same. -/
theorem run_last (c : Dev nD) (E : Set ℕ) (i : grid2.Coords)
    (arg1 : Memref sig .tc .vmem S5000x64 .f32) (harg1 : arg1.IsWhole) (arg2 : Memref sig .tc .vmem S5000x128 .f32) (harg2 : arg2.IsWhole)
    (arg3 : Memref sig .tc .vmem S64x128 .f32) (harg3 : arg3.IsWhole) (arg4 : Memref sig .tc .vmem S64x128 .f32) (harg4 : arg4.IsWhole)
    (x0 : Vec F S5000x64 .f32) (x1 : Vec F S5000x128 .f32) (K : PUnit → sProp 𝕄)
    (h1 : ¬ isFirst i) (h2 : isLast i) (a : Vec F S64x128 .f32) :
    iprop(owns (c : Thread nD τ) arg1 fullShare x0 ∗ owns (c : Thread nD τ) arg2 fullShare x1 ∗ (∃ xo, owns (c : Thread nD τ) arg3 fullShare xo)
        ∗ owns (c : Thread nD τ) arg4 fullShare a
        ∗ (iprop(owns (c : Thread nD τ) arg1 fullShare x0 ∗ owns (c : Thread nD τ) arg2 fullShare x1 ∗ owns (c : Thread nD τ) arg3 fullShare (stepAcc x0 x1 a)
            ∗ owns (c : Thread nD τ) arg4 fullShare (stepAcc x0 x1 a)) -∗ K ⟨⟩))
      ⊢ wp frame (wpE (defs₀ (F := F)) Variants.none c none) E (cc2__pool_kernel i arg1 harg1 arg2 harg2 arg3 harg3 arg4 harg4) K := by
  simp only [cc2__pool_kernel_eq_skeleton]; unfold cc2__pool_kernel_skel
  unfold owns
  iintro ⟨⟨%f0, %hf0, H0⟩, ⟨%f1, %hf1, H1⟩, ⟨%xo, %f2, -, H2⟩, ⟨%f3, %hf3, H3⟩, Hk⟩
  subst hf0; subst hf1; subst hf3
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    refine (View.read_writes_eq_canon _ _ _ (accCover _ _)).trans ?_
    unfold stepAcc
    rw [View.canon_unit_zero (S := S64x128) zero_off, View.readCov_unit_zero (S := S64x128) _ zero_off]
    simp only [View.readAt_eq_ld, View.ld_unit_zero (S := S5000x64) zero_off, View.ld_unit_zero (S := S5000x128) zero_off,
      View.ld_unit_zero (S := S64x128) zero_off]
  iexists _; isplitr
  swap; · iexact H3
  ipureintro
  sl_unfold_words
  refine (View.read_writes_eq_canon _ _ _ (accCover _ _)).trans ?_
  unfold stepAcc
  rw [View.canon_unit_zero (S := S64x128) zero_off]
  simp only [View.readAt_eq_ld, View.ld_unit_zero (S := S5000x64) zero_off, View.ld_unit_zero (S := S5000x128) zero_off,
    View.ld_unit_zero (S := S64x128) zero_off]

/-! ## The accumulator point by point, and the region's proof data -/

/-- The grid point of a natural number (only numbers below ten are ever meant). -/
def pt (n : ℕ) : Fin cfg2.N := ⟨n % 10, by show n % 10 < grid2.N; rw [N_2]; exact Nat.mod_lt _ (by decide)⟩
theorem pt_val (t : Fin cfg2.N) : pt t.val = t :=
  Fin.ext (Nat.mod_eq_of_lt (lt_of_lt_of_eq t.isLt (show cfg2.N = 10 from N_2)))

/-- What the scratch accumulator holds after the body at point `n`: from zero, one step per point up to `n`. -/
def accAt (c : Dev nD) : ℕ → Vec F S64x128 .f32
  | 0 => stepAcc (hot V c (pt 0)) (feat V c (pt 0)) (zeroAcc (F := F))
  | n + 1 => stepAcc (hot V c (pt (n + 1))) (feat V c (pt (n + 1))) (accAt c n)

theorem accAt_first (c : Dev nD) (t : Fin cfg2.N) (h : t.val = 0) :
    accAt V c t.val = stepAcc (hot V c t) (feat V c t) (zeroAcc (F := F)) := by
  have e : pt 0 = t := by rw [← h]; exact pt_val t
  rw [h]; show stepAcc (hot V c (pt 0)) (feat V c (pt 0)) _ = _; rw [e]
theorem accAt_later (c : Dev nD) (t : Fin cfg2.N) (h : t.val ≠ 0) :
    accAt V c t.val = stepAcc (hot V c t) (feat V c t) (accAt V c (t.val - 1)) := by
  obtain ⟨n, hn⟩ := t
  cases n with
  | zero => exact absurd rfl h
  | succ n =>
    have e : pt (n + 1) = ⟨n + 1, hn⟩ := pt_val ⟨n + 1, hn⟩
    show stepAcc (hot V c (pt (n + 1))) (feat V c (pt (n + 1))) (accAt V c n) = _
    rw [e]; rfl

/-- The scratch accumulator as a memref. -/
abbrev scM : Memref sig .tc .vmem S64x128 .f32 := Memref.whole cc2_scratch0

/-- What the region invariant holds besides the accumulator: the other regions' staging buffers, each whole at some
    contents, and the generator register at some state. -/
def Rest (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ r, prngReg c r))

/-- The class's region invariant opened: the rest, and the accumulator at some contents. -/
theorem PhiA_open (c : Dev nD) : (Pipeline.ΦA spec2 c : sProp 𝕄) ⊢ iprop(Rest (F := F) c ∗ ∃ d, owns (c : Thread nD τ) scM fullShare d) := by
  unfold Pipeline.ΦA Rest; rw [scopedRest2_eq]; simp only [scM, owns_whole]
  iintro ⟨⟨H0, H1, H2, H3, H4, H5, H6, H7, H8, H9, HS⟩, Hg⟩
  isplitr [HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact Hg
  iexact HS
theorem PhiA_close (c : Dev nD) : iprop(Rest (F := F) c ∗ ∃ d, owns (c : Thread nD τ) scM fullShare d) ⊢ (Pipeline.ΦA spec2 c : sProp 𝕄) := by
  unfold Pipeline.ΦA Rest; rw [scopedRest2_eq]; simp only [scM, owns_whole]
  iintro ⟨⟨H0, H1, H2, H3, H4, H5, H6, H7, H8, H9, Hg⟩, HS⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact HS
  iexact Hg

/-- The region invariant before position `n`: before the first point the class's; afterwards the rest with the
    accumulator at what the point before left. -/
def PhiS (c : Dev nD) : ℕ → sProp 𝕄
  | 0 => Pipeline.ΦA spec2 c
  | n + 1 => iprop(Rest (F := F) c ∗ owns (c : Thread nD τ) scM fullShare (accAt V c n))

theorem PhiS_pos (c : Dev nD) (n : ℕ) (h : n ≠ 0) :
    PhiS V c n = iprop(Rest (F := F) c ∗ owns (c : Thread nD τ) scM fullShare (accAt V c (n - 1))) := by
  cases n with
  | zero => exact absurd rfl h
  | succ n => rfl

/-- The region's proof data on core `c`: the arrays as the region finds them; after the body each input's buffer at
    its block and the output's at the accumulator's contents; the accumulator carried in the invariant. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => accAt V c t.val
  Φ t := PhiS V c t.val
  q _ := fullShare
  owed _ := 0

theorem A_eq (c : Dev nD) (w : Fin cfg2.W) : (dat V c).A w = V c (Pipeline.arrRef spec2 w) := by
  dsimp only [dat]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = accAt V c t.val := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem Phi_castSucc (c : Dev nD) (t : Fin cfg2.N) : (dat V c).Φ t.castSucc = PhiS V c t.val := by
  dsimp only [dat]; simp only [Fin.coe_castSucc]
theorem Phi_succ (c : Dev nD) (t : Fin cfg2.N) :
    (dat V c).Φ t.succ = iprop(Rest (F := F) c ∗ owns (c : Thread nD τ) scM fullShare (accAt V c t.val)) := rfl

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 1600000 in
/-- The body at any point: which of the three cases the point is in is decided by its position. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).owesAt () t.succ = (dat V c).owesAt () t.castSucc from rfl, Phi_succ, Phi_castSucc]
  rw [show (dat V c).leavesExact 0 t = owns (c : Thread nD τ) (st2_0 t) fullShare ((dat V c).after 0 t) from by
    unfold Dat.leavesExact; rw [live_0 t], after_0]
  rw [show (dat V c).leavesExact 1 t = owns (c : Thread nD τ) (st2_1 t) fullShare ((dat V c).after 1 t) from by
    unfold Dat.leavesExact; rw [live_1 t], after_1]
  have hN : t.val < 10 := lt_of_lt_of_eq t.isLt (show cfg2.N = 10 from N_2)
  by_cases hf : t.val = 0
  · have h1 : isFirst (grid2.coords t) := (isFirst_iff t).mpr (by omega)
    have h2 : ¬ isLast (grid2.coords t) := fun h => by have := (isLast_iff t).mp h; omega
    rw [Dat.leavesExact_idle (dat V c) 2 t (idle_2 t h2) (noflush_2 t h2), accAt_first V c t hf, hf]
    rw [show PhiS V c 0 = Pipeline.ΦA spec2 c from rfl]
    iintro ⟨HΦ, Ho, ⟨%d0, H0⟩, ⟨%d1, H1⟩, ⟨%d2, H2⟩⟩
    ihave HΦ' := (PhiA_open (F := F) c) $$ HΦ
    icases HΦ' with ⟨HR, HS⟩
    iapply (run_first c Set.univ _ _ _ _ _ _ _ _ _ (hot V c t) (feat V c t) _ h1 h2 _)
    isplitl [H0]; · iexact H0
    isplitl [H1]; · iexact H1
    isplitl [H2]; · iexact H2
    isplitl [HS]; · iexact HS
    iintro ⟨H0, H1, H2, HS⟩
    isplitl [HR HS]
    · isplitl [HR]; · iexact HR
      iexact HS
    isplitl [Ho]; · iexact Ho
    isplitl [H0]; · iexact H0
    isplitl [H1]; · iexact H1
    iexists _; iexact H2
  · have h1 : ¬ isFirst (grid2.coords t) := fun h => by have := (isFirst_iff t).mp h; omega
    rw [PhiS_pos V c _ hf, accAt_later V c t hf]
    by_cases hl : t.val = 9
    · have h2 : isLast (grid2.coords t) := (isLast_iff t).mpr (by omega)
      rw [show (dat V c).leavesExact 2 t = owns (c : Thread nD τ) (st2_2 t) fullShare ((dat V c).after 2 t) from by
        unfold Dat.leavesExact; rw [live_2 t h2], after_2, accAt_later V c t hf]
      iintro ⟨⟨HR, HS⟩, Ho, ⟨%d0, H0⟩, ⟨%d1, H1⟩, ⟨%d2, H2⟩⟩
      iapply (run_last c Set.univ _ _ _ _ _ _ _ _ _ (hot V c t) (feat V c t) _ h1 h2 _)
      isplitl [H0]; · iexact H0
      isplitl [H1]; · iexact H1
      isplitl [H2]; · iexists _; iexact H2
      isplitl [HS]; · iexact HS
      iintro ⟨H0, H1, H2, HS⟩
      isplitl [HR HS]
      · isplitl [HR]; · iexact HR
        iexact HS
      isplitl [Ho]; · iexact Ho
      isplitl [H0]; · iexact H0
      isplitl [H1]; · iexact H1
      iexact H2
    · have h2 : ¬ isLast (grid2.coords t) := fun h => by have := (isLast_iff t).mp h; omega
      rw [Dat.leavesExact_idle (dat V c) 2 t (idle_2 t h2) (noflush_2 t h2)]
      iintro ⟨⟨HR, HS⟩, Ho, ⟨%d0, H0⟩, ⟨%d1, H1⟩, ⟨%d2, H2⟩⟩
      iapply (run_mid c Set.univ _ _ _ _ _ _ _ _ _ (hot V c t) (feat V c t) _ h1 h2 _ _)
      isplitl [H0]; · iexact H0
      isplitl [H1]; · iexact H1
      isplitl [H2]; · iexact H2
      isplitl [HS]; · iexact HS
      iintro ⟨H0, H1, H2, HS⟩
      isplitl [HR HS]
      · isplitl [HR]; · iexact HR
        iexact HS
      isplitl [Ho]; · iexact Ho
      isplitl [H0]; · iexact H0
      isplitl [H1]; · iexact H1
      iexists _; iexact H2

theorem body_obligation (c : Dev nD) : BodyObligation (dat (F := F) V c) (defs₀ (F := F)) Variants.none () Set.univ := fun t => by
  rw [bigSep_W2, bigSep_W2]
  exact sound_body V c t

/-- What the region is entered with is the invariant before the first point; after the last point the invariant
    gives the class's back, the accumulator's contents forgotten. -/
theorem Phi_in (c : Dev nD) : (Pipeline.ΦA spec2 c : sProp 𝕄) ⊢ (dat V c).Φ 0 := .rfl
theorem Phi_out (c : Dev nD) : (dat V c).Φ (Fin.last cfg2.N) ⊢ (Pipeline.ΦA spec2 c : sProp 𝕄) := by
  rw [show (dat V c).Φ (Fin.last cfg2.N) = PhiS V c (9 + 1) from by
    show PhiS V c (Fin.last cfg2.N).val = _; rw [Fin.val_last, show cfg2.N = 9 + 1 from N_2]]
  refine .trans ?_ (PhiA_close (F := F) c)
  rw [show PhiS V c (9 + 1) = iprop(Rest (F := F) c ∗ owns (c : Thread nD τ) scM fullShare (accAt V c 9)) from rfl]
  iintro ⟨HR, HS⟩
  isplitl [HR]; · iexact HR
  iexists _; iexact HS

end Cert.KernelIdeal.Pool

end
-- ==== Proof.KI.Run.lean ====
/-
  The whole program as a run: the buffers' contents at every boundary between a stretch of host operations and a kernel
  region, folded from the launch memory; each region entered at the contents the items before it leave and left with its
  output array at what its write-backs fold to; and the run's end state: every argument as launched, the result buffer at
  the fold's last contents.
-/
import proofs.«427407_j28939489640781_1_alg».proof.Proof.KI.Lin0
import proofs.«427407_j28939489640781_1_alg».proof.Proof.KI.Lin1
import proofs.«427407_j28939489640781_1_alg».proof.Proof.KI.Pool
import proofs.«427407_j28939489640781_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the first stretch of host operations (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (the inputs as entered, the output's write-backs folded),
    every other buffer as entered. -/
def W2 (c : Dev nD) : Valuation τ sig (Elt F) :=
  Pipeline.withArrays spec0 c (W1 m c) fun w => (Lin0.dat (V1 m) c).arrAt w cfg0.N
theorem W2_arr (c : Dev nD) (w : Fin cfg0.W) :
    W2 m c (Proc.devRef .tc (Pipeline.arrRef spec0 w)) = (Lin0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Lin0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- An input array of region 0 leaves it as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((Lin0.dat (V1 m) c).arrAt_in w hw _).trans (Lin0.A_eq (V1 m) c w))

/-- After the host operations between the first and the second linear transform (region 1's entry). -/
abbrev W3 : Dev nD → Valuation τ sig (Elt F) := fun c => StableHlo.after hostOps1 (W2 m c)
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b

/-- At region 1's exit: its arrays at what the pipeline leaves (the inputs as entered, the output's write-backs folded),
    every other buffer as entered. -/
def W5 (c : Dev nD) : Valuation τ sig (Elt F) :=
  Pipeline.withArrays spec1 c (W4 m c) fun w => (Lin1.dat (V4 m) c).arrAt w cfg1.N
theorem W5_arr (c : Dev nD) (w : Fin cfg1.W) :
    W5 m c (Proc.devRef .tc (Pipeline.arrRef spec1 w)) = (Lin1.dat (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
abbrev V5 : (c : Dev nD) → (b : Ref sig .tc) → Buf (Elt F) ((c : Thread nD τ).loc b) := fun c b => W5 m c b
theorem hF1 (c : Dev nD) (w : Fin cfg1.W) : (Lin1.dat (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)
/-- An input array of region 1 leaves it as it entered. -/
theorem W5_in (c : Dev nD) (w : Fin cfg1.W) (hw : (cfg1.win w).isOut = false) :
    W5 m c (Proc.devRef .tc (Pipeline.arrRef spec1 w)) = W4 m c (Proc.devRef .tc (Pipeline.arrRef spec1 w)) :=
  (W5_arr m c w).trans (((Lin1.dat (V4 m) c).arrAt_in w hw _).trans (Lin1.A_eq (V4 m) c w))

/-- After the host operations between the second linear transform and the pooling (region 2's entry). -/
abbrev W6 : Dev nD → Valuation τ sig (Elt F) := fun c => StableHlo.after hostOps2 (W5 m c)
abbrev V6 : (c : Dev nD) → (b : Ref sig .tc) → Buf (Elt F) ((c : Thread nD τ).loc b) := fun c b => W6 m c b

/-- At region 2's exit: its arrays at what the pipeline leaves (the inputs as entered, the output's write-backs folded),
    every other buffer as entered. -/
def W7 (c : Dev nD) : Valuation τ sig (Elt F) :=
  Pipeline.withArrays spec2 c (W6 m c) fun w => (Pool.dat (V6 m) c).arrAt w cfg2.N
theorem W7_arr (c : Dev nD) (w : Fin cfg2.W) :
    W7 m c (Proc.devRef .tc (Pipeline.arrRef spec2 w)) = (Pool.dat (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
abbrev V7 : (c : Dev nD) → (b : Ref sig .tc) → Buf (Elt F) ((c : Thread nD τ).loc b) := fun c b => W7 m c b
theorem hF2 (c : Dev nD) (w : Fin cfg2.W) : (Pool.dat (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)
/-- An input array of region 2 leaves it as it entered. -/
theorem W7_in (c : Dev nD) (w : Fin cfg2.W) (hw : (cfg2.win w).isOut = false) :
    W7 m c (Proc.devRef .tc (Pipeline.arrRef spec2 w)) = W6 m c (Proc.devRef .tc (Pipeline.arrRef spec2 w)) :=
  (W7_arr m c w).trans (((Pool.dat (V6 m) c).arrAt_in w hw _).trans (Pool.A_eq (V6 m) c w))

/-- After the last stretch of host operations: the end. -/
abbrev W8 : Dev nD → Valuation τ sig (Elt F) := fun c => StableHlo.after hostOps3 (W7 m c)

/-! ## The arguments end as launched -/

theorem W8_main_arg0 (c : Dev nD) : W8 m c (Proc.devRef .tc main_arg0) = m ((c : Thread nD τ).loc main_arg0) :=
  calc W8 m c (Proc.devRef .tc main_arg0)
    _ = W7 m c (Proc.devRef .tc main_arg0) := StableHlo.after_of_writes_sub hostOps3 _ hostOps3_writes (by decide)
    _ = W6 m c (Proc.devRef .tc main_arg0) := W7_of_ne m c main_arg0 (by decide)
    _ = W5 m c (Proc.devRef .tc main_arg0) := StableHlo.after_of_writes_sub hostOps2 _ hostOps2_writes (by decide)
    _ = W4 m c (Proc.devRef .tc main_arg0) := W5_of_ne m c main_arg0 (by decide)
    _ = W3 m c (Proc.devRef .tc main_arg0) := StableHlo.after_of_writes_sub hostOps1_1 _ hostOps1_1_writes (by decide)
    _ = W2 m c (Proc.devRef .tc main_arg0) := StableHlo.after_of_writes_sub hostOps1 _ hostOps1_writes (by decide)
    _ = W1 m c (Proc.devRef .tc main_arg0) := W2_in m c 0 rfl
    _ = W0 m c (Proc.devRef .tc main_arg0) := StableHlo.after_of_writes_sub hostOps0 _ hostOps0_writes (by decide)
    _ = m ((c : Thread nD τ).loc main_arg0) := rfl

theorem W8_main_arg1 (c : Dev nD) : W8 m c (Proc.devRef .tc main_arg1) = m ((c : Thread nD τ).loc main_arg1) :=
  calc W8 m c (Proc.devRef .tc main_arg1)
    _ = W7 m c (Proc.devRef .tc main_arg1) := StableHlo.after_of_writes_sub hostOps3 _ hostOps3_writes (by decide)
    _ = W6 m c (Proc.devRef .tc main_arg1) := W7_of_ne m c main_arg1 (by decide)
    _ = W5 m c (Proc.devRef .tc main_arg1) := StableHlo.after_of_writes_sub hostOps2 _ hostOps2_writes (by decide)
    _ = W4 m c (Proc.devRef .tc main_arg1) := W5_of_ne m c main_arg1 (by decide)
    _ = W3 m c (Proc.devRef .tc main_arg1) := StableHlo.after_of_writes_sub hostOps1_1 _ hostOps1_1_writes (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W8_main_arg2 (c : Dev nD) : W8 m c (Proc.devRef .tc main_arg2) = m ((c : Thread nD τ).loc main_arg2) :=
  calc W8 m c (Proc.devRef .tc main_arg2)
    _ = W7 m c (Proc.devRef .tc main_arg2) := StableHlo.after_of_writes_sub hostOps3 _ hostOps3_writes (by decide)
    _ = W6 m c (Proc.devRef .tc main_arg2) := W7_of_ne m c main_arg2 (by decide)
    _ = W5 m c (Proc.devRef .tc main_arg2) := StableHlo.after_of_writes_sub hostOps2 _ hostOps2_writes (by decide)
    _ = W4 m c (Proc.devRef .tc main_arg2) := W5_of_ne m c main_arg2 (by decide)
    _ = W3 m c (Proc.devRef .tc main_arg2) := StableHlo.after_of_writes_sub hostOps1_1 _ hostOps1_1_writes (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W8_main_arg3 (c : Dev nD) : W8 m c (Proc.devRef .tc main_arg3) = m ((c : Thread nD τ).loc main_arg3) :=
  calc W8 m c (Proc.devRef .tc main_arg3)
    _ = W7 m c (Proc.devRef .tc main_arg3) := StableHlo.after_of_writes_sub hostOps3 _ hostOps3_writes (by decide)
    _ = W6 m c (Proc.devRef .tc main_arg3) := W7_of_ne m c main_arg3 (by decide)
    _ = W5 m c (Proc.devRef .tc main_arg3) := StableHlo.after_of_writes_sub hostOps2 _ hostOps2_writes (by decide)
    _ = W4 m c (Proc.devRef .tc main_arg3) := W5_of_ne m c main_arg3 (by decide)
    _ = W3 m c (Proc.devRef .tc main_arg3) := StableHlo.after_of_writes_sub hostOps1_1 _ hostOps1_1_writes (by decide)
    _ = W2 m c (Proc.devRef .tc main_arg3) := StableHlo.after_of_writes_sub hostOps1 _ hostOps1_writes (by decide)
    _ = W1 m c (Proc.devRef .tc main_arg3) := W2_in m c 1 rfl
    _ = W0 m c (Proc.devRef .tc main_arg3) := StableHlo.after_of_writes_sub hostOps0 _ hostOps0_writes (by decide)
    _ = m ((c : Thread nD τ).loc main_arg3) := rfl

theorem W8_main_arg4 (c : Dev nD) : W8 m c (Proc.devRef .tc main_arg4) = m ((c : Thread nD τ).loc main_arg4) :=
  calc W8 m c (Proc.devRef .tc main_arg4)
    _ = W7 m c (Proc.devRef .tc main_arg4) := StableHlo.after_of_writes_sub hostOps3 _ hostOps3_writes (by decide)
    _ = W6 m c (Proc.devRef .tc main_arg4) := W7_of_ne m c main_arg4 (by decide)
    _ = W5 m c (Proc.devRef .tc main_arg4) := StableHlo.after_of_writes_sub hostOps2 _ hostOps2_writes (by decide)
    _ = W4 m c (Proc.devRef .tc main_arg4) := W5_of_ne m c main_arg4 (by decide)
    _ = W3 m c (Proc.devRef .tc main_arg4) := StableHlo.after_of_writes_sub hostOps1_1 _ hostOps1_1_writes (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W8_main_arg5 (c : Dev nD) : W8 m c (Proc.devRef .tc main_arg5) = m ((c : Thread nD τ).loc main_arg5) :=
  calc W8 m c (Proc.devRef .tc main_arg5)
    _ = W7 m c (Proc.devRef .tc main_arg5) := StableHlo.after_of_writes_sub hostOps3 _ hostOps3_writes (by decide)
    _ = W6 m c (Proc.devRef .tc main_arg5) := W7_of_ne m c main_arg5 (by decide)
    _ = W5 m c (Proc.devRef .tc main_arg5) := StableHlo.after_of_writes_sub hostOps2 _ hostOps2_writes (by decide)
    _ = W4 m c (Proc.devRef .tc main_arg5) := W5_in m c 1 rfl
    _ = W3 m c (Proc.devRef .tc main_arg5) := StableHlo.after_of_writes_sub hostOps1_1 _ hostOps1_1_writes (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W8_main_arg6 (c : Dev nD) : W8 m c (Proc.devRef .tc main_arg6) = m ((c : Thread nD τ).loc main_arg6) :=
  calc W8 m c (Proc.devRef .tc main_arg6)
    _ = W7 m c (Proc.devRef .tc main_arg6) := StableHlo.after_of_writes_sub hostOps3 _ hostOps3_writes (by decide)
    _ = W6 m c (Proc.devRef .tc main_arg6) := W7_of_ne m c main_arg6 (by decide)
    _ = W5 m c (Proc.devRef .tc main_arg6) := StableHlo.after_of_writes_sub hostOps2 _ hostOps2_writes (by decide)
    _ = W4 m c (Proc.devRef .tc main_arg6) := W5_of_ne m c main_arg6 (by decide)
    _ = W3 m c (Proc.devRef .tc main_arg6) := StableHlo.after_of_writes_sub hostOps1_1 _ hostOps1_1_writes (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => Lin0.dat (V1 m) c
  | ⟨1, _⟩ => fun c => Lin1.dat (V4 m) c
  | ⟨2, _⟩ => fun c => Pool.dat (V6 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m c) ∗ ∃ r, prngReg c r)

/-! ## The regions as segments -/

set_option backward.isDefEq.respectTransparency.types false in
/-- Region 0 over the thread state: entered from every unscoped buffer at `W1`, left at `W2`: its arrays
    split out of the unscoped buffers and put back at the exit contents; the generator register into the region invariant
    and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Lin0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ (Pipeline.ΦA spec0 c : sProp 𝕄) from .rfl).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W4`, left at `W5`: its arrays
    split out of the unscoped buffers and put back at the exit contents; the generator register into the region invariant
    and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Lin1.body_obligation (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ (Pipeline.ΦA spec1 c : sProp 𝕄) from .rfl).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W6`, left at `W7`: its arrays
    split out of the unscoped buffers and put back at the exit contents; the generator register into the region invariant
    and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Pool.body_obligation (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    refine (show (pdats m 2 c).Φ (Fin.last _) ⊢ (Pipeline.ΦA spec2 c : sProp 𝕄) from Pool.Phi_out (V6 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)),
    .region (reg2 m),
    .host (hseg hostOps3 hostOps3_sub hostOps3_fresh (W7 m)) ]
theorem main_run (c : Dev nD) : main (F := F) c = Pipeline.Seg.run (segs m) := (main_chain c).trans (by chain_rfl)

set_option backward.isDefEq.respectTransparency.types false in
/-- From any memory with zero counters every weakly fair execution terminates, nothing faulting, with the result buffer at
    the fold's last contents and every argument as launched. -/
theorem run_main (ρ : Dev nD → PrngReg) : θ_run defs (onTc (τ := τ) (main (F := F))) ⟨m, fun _ => 0, ρ⟩ (fun r => ∀ c : Dev nD,
      r.2.mem ((c.tc : Thread nD τ).loc main_v86) = W8 m c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W8 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c =>
      ⟨h c _ (mem_uc main_v86 (by decide)),
       (h c _ (mem_uc main_arg0 (by decide))).trans (W8_main_arg0 m c),
       (h c _ (mem_uc main_arg1 (by decide))).trans (W8_main_arg1 m c),
       (h c _ (mem_uc main_arg2 (by decide))).trans (W8_main_arg2 m c),
       (h c _ (mem_uc main_arg3 (by decide))).trans (W8_main_arg3 m c),
       (h c _ (mem_uc main_arg4 (by decide))).trans (W8_main_arg4 m c),
       (h c _ (mem_uc main_arg5 (by decide))).trans (W8_main_arg5 m c),
       (h c _ (mem_uc main_arg6 (by decide))).trans (W8_main_arg6 m c)⟩)

/-- The frame: every weakly fair execution terminates, nothing faulting, every argument as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_main m ρ)

end Cert.KernelIdeal.Run

end
-- ==== Proof.Bridge.Keep.lean ====
/-
  The kernel program's buffers between its items, at the ideal instance: a buffer that no item in between writes holds
  what it held; and the first stretch of host operations leaves the edge endpoints, the symmetric normalisation of the
  edges and the squared inverse root degrees exactly as the reference computes them (the reference computes them once
  per convolution, the same values under two names).
-/
import proofs.«427407_j28939489640781_1_alg».proof.Proof.KI.Run
import proofs.«427407_j28939489640781_1_alg».proof.Proof.Gen.ReferenceIdeal.Read

set_option maxRecDepth 16384

noncomputable section

namespace Cert.Bridge

open Idealize.ShloMosaic Idealize.ShloMosaic.TcCoe Idealize.SL.Sem
open Cert.KernelIdeal Cert.KernelIdeal.Gen Cert.KernelIdeal.Run

variable (m : (ℓ : Loc nD τ sig) → Buf (Elt Ideal) ℓ) (c : Dev nD)

/-! ## The arguments, and what crosses a region or a stretch unchanged -/

abbrev a0 : (⟨S50000x128, .f32⟩ : BufTy).Contents (Elt Ideal) := m ((c.tc : Thread nD τ).loc main_arg0)
abbrev a1 : (⟨S2x640000, .i32⟩ : BufTy).Contents (Elt Ideal) := m ((c.tc : Thread nD τ).loc main_arg1)
abbrev a2 : (⟨S50000, .i32⟩ : BufTy).Contents (Elt Ideal) := m ((c.tc : Thread nD τ).loc main_arg2)
abbrev a3 : (⟨S128x128, .f32⟩ : BufTy).Contents (Elt Ideal) := m ((c.tc : Thread nD τ).loc main_arg3)
abbrev a4 : (⟨S128, .f32⟩ : BufTy).Contents (Elt Ideal) := m ((c.tc : Thread nD τ).loc main_arg4)
abbrev a5 : (⟨S128x128, .f32⟩ : BufTy).Contents (Elt Ideal) := m ((c.tc : Thread nD τ).loc main_arg5)
abbrev a6 : (⟨S128, .f32⟩ : BufTy).Contents (Elt Ideal) := m ((c.tc : Thread nD τ).loc main_arg6)

theorem k01 (b : Ref sig .tc) (h : b ∉ hostOps0_W) : W1 (F := Ideal) m c (Proc.devRef .tc b) = W0 m c (Proc.devRef .tc b) :=
  StableHlo.after_of_writes_sub hostOps0 _ hostOps0_writes h
theorem k12 (b : Ref sig .tc) (h : ∀ w, Pipeline.arrRef spec0 w ≠ b) : W2 (F := Ideal) m c (Proc.devRef .tc b) = W1 m c (Proc.devRef .tc b) :=
  W2_of_ne m c b h
theorem k23 (b : Ref sig .tc) (h : b ∉ hostOps1_W) : W3 (F := Ideal) m c (Proc.devRef .tc b) = W2 m c (Proc.devRef .tc b) :=
  StableHlo.after_of_writes_sub hostOps1 _ hostOps1_writes h
theorem k34 (b : Ref sig .tc) (h : b ∉ hostOps1_1_W) : W4 (F := Ideal) m c (Proc.devRef .tc b) = W3 m c (Proc.devRef .tc b) :=
  StableHlo.after_of_writes_sub hostOps1_1 _ hostOps1_1_writes h
theorem k45 (b : Ref sig .tc) (h : ∀ w, Pipeline.arrRef spec1 w ≠ b) : W5 (F := Ideal) m c (Proc.devRef .tc b) = W4 m c (Proc.devRef .tc b) :=
  W5_of_ne m c b h
theorem k56 (b : Ref sig .tc) (h : b ∉ hostOps2_W) : W6 (F := Ideal) m c (Proc.devRef .tc b) = W5 m c (Proc.devRef .tc b) :=
  StableHlo.after_of_writes_sub hostOps2 _ hostOps2_writes h
theorem k67 (b : Ref sig .tc) (h : ∀ w, Pipeline.arrRef spec2 w ≠ b) : W7 (F := Ideal) m c (Proc.devRef .tc b) = W6 m c (Proc.devRef .tc b) :=
  W7_of_ne m c b h
/-- From the first region's entry to the second's, for a buffer nothing in between writes. -/
theorem k14 (b : Ref sig .tc) (h2 : ∀ w, Pipeline.arrRef spec0 w ≠ b) (h3 : b ∉ hostOps1_W) (h4 : b ∉ hostOps1_1_W) :
    W4 (F := Ideal) m c (Proc.devRef .tc b) = W1 m c (Proc.devRef .tc b) :=
  (k34 m c b h4).trans ((k23 m c b h3).trans (k12 m c b h2))
/-- From the first region's entry to the second's exit. -/
theorem k15 (b : Ref sig .tc) (h2 : ∀ w, Pipeline.arrRef spec0 w ≠ b) (h3 : b ∉ hostOps1_W) (h4 : b ∉ hostOps1_1_W)
    (h5 : ∀ w, Pipeline.arrRef spec1 w ≠ b) : W5 (F := Ideal) m c (Proc.devRef .tc b) = W1 m c (Proc.devRef .tc b) :=
  (k45 m c b h5).trans (k14 m c b h2 h3 h4)

/-! ## The first stretch: the edge endpoints and the two normalisations, as the reference computes them (twice) -/

theorem W1_src : W1 (F := Ideal) m c (Proc.devRef .tc main_v1) = Cert.ReferenceIdeal.Read.val_main_v1 (F := Ideal) (a1 m c) := by
  show StableHlo.after hostOps0 (W0 m c) (Proc.devRef .tc main_v1) = _
  after_results_simp
  rfl
theorem W1_dst : W1 (F := Ideal) m c (Proc.devRef .tc main_v3) = Cert.ReferenceIdeal.Read.val_main_v3 (F := Ideal) (a1 m c) := by
  show StableHlo.after hostOps0 (W0 m c) (Proc.devRef .tc main_v3) = _
  after_results_simp
  rfl
set_option maxHeartbeats 4000000 in
theorem W1_norm : W1 (F := Ideal) m c (Proc.devRef .tc main_v25) = Cert.ReferenceIdeal.Read.val_main_v26 (F := Ideal) (a1 m c) := by
  show StableHlo.after hostOps0 (W0 m c) (Proc.devRef .tc main_v25) = _
  after_results_simp
  rfl
set_option maxHeartbeats 4000000 in
theorem W1_self : W1 (F := Ideal) m c (Proc.devRef .tc main_v26) = Cert.ReferenceIdeal.Read.val_main_v40 (F := Ideal) (a1 m c) := by
  show StableHlo.after hostOps0 (W0 m c) (Proc.devRef .tc main_v26) = _
  after_results_simp
  rfl
/-- The second convolution recomputes them in the reference: the same values under their second names. -/
theorem src2 : Cert.ReferenceIdeal.Read.val_main_v50 (F := Ideal) (a1 m c) = Cert.ReferenceIdeal.Read.val_main_v1 (F := Ideal) (a1 m c) := rfl
theorem dst2 : Cert.ReferenceIdeal.Read.val_main_v52 (F := Ideal) (a1 m c) = Cert.ReferenceIdeal.Read.val_main_v3 (F := Ideal) (a1 m c) := rfl
theorem norm2 : Cert.ReferenceIdeal.Read.val_main_v75 (F := Ideal) (a1 m c) = Cert.ReferenceIdeal.Read.val_main_v26 (F := Ideal) (a1 m c) := rfl
theorem self2 : Cert.ReferenceIdeal.Read.val_main_v89 (F := Ideal) (a1 m c) = Cert.ReferenceIdeal.Read.val_main_v40 (F := Ideal) (a1 m c) := rfl

end Cert.Bridge

end
-- ==== Proof.KI.LinValue.lean ====
/-
  The two linear transforms, from blocks to arrays: at the extended reals each region's output array after the region is
  the matrix product of the region's activation array and its weight matrix. A grid point's block product is read at an
  index as a sum over the contraction coordinate; the block of rows at point `t` is rows `5000 t … 5000 t + 4999` of
  the activations and the weights' block is the whole matrix, so what the point writes back is block `t` of the
  arrays' product; the ten blocks of 5000 rows cover the 50000 rows.
-/
import proofs.«427407_j28939489640781_1_alg».proof.Proof.KI.Lin0
import proofs.«427407_j28939489640781_1_alg».proof.Proof.KI.Lin1
import Idealize.ShloMosaic.Lib.Pipeline.Value
import Idealize.ShloMosaic.Lib.ValueIdx
import Idealize.ShloMosaic.PureOps.Ideal.Laws

set_option maxRecDepth 16384

noncomputable section

namespace Cert.KernelIdeal.LinValue

open Cert.KernelIdeal Cert.KernelIdeal.Gen
open Idealize.ShloMosaic Idealize.ShloMosaic.TcCoe
open Idealize.SL Idealize.SL.Sem
open Idealize.ShloMosaic.Pipeline (Dat Cfg Window)
open scoped BigOperators

/-! ## The block product at an index

The kernel's contraction pairs axis 1 of the rows with axis 0 of the weights; its one contraction axis is re-indexed
by its coordinate `k : Fin 128`. -/

theorem lhs_ax0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_ax1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_ax0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_ax1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product of a block of rows and the weights into a zero accumulator, read at row `r` and column `j`: the sum over
    `k` of the block's `(r, k)` times the weights' `(k, j)`. -/
theorem blockProd_apply (x : FVec Ideal S5000x128 .bf16) (w : FVec Ideal S128x128 .bf16) (r : Fin 5000) (j : Fin 128) :
    matmul (F := Ideal) dot_S5000x128_S128x128_S5000x128_1_0_0_1_n_n none x w (constant S5000x128 .f32 0x00000000#32) (ValueIdx.ix2 r j)
      = ∑ k : Fin 128, x (ValueIdx.ix2 r k) * w (ValueIdx.ix2 k j) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 r j) ((ValueIdx.contrEquiv1 dot_S5000x128_S128x128_S5000x128_1_0_0_1_n_n 128 rfl rfl).symm k) = ValueIdx.ix2 r k := funext fun a => Fin.ext (by
    match a with
    | ⟨0, _⟩ => exact lhs_ax0 _ _
    | ⟨1, _⟩ => exact (lhs_ax1 _ _).trans hk)
  have er : dot_S5000x128_S128x128_S5000x128_1_0_0_1_n_n.rhsIdx (ValueIdx.ix2 r j) ((ValueIdx.contrEquiv1 dot_S5000x128_S128x128_S5000x128_1_0_0_1_n_n 128 rfl rfl).symm k) = ValueIdx.ix2 k j := funext fun a => Fin.ext (by
    match a with
    | ⟨0, _⟩ => exact (rhs_ax0 _ _).trans hk
    | ⟨1, _⟩ => exact rhs_ax1 _ _)
  rw [el, er]

/-- The first region's payload at an index: the narrowing conversions are the identity on the extended reals. -/
theorem pay0_apply (x0 : Vec Ideal S5000x128 .f32) (x1 : Vec Ideal S128x128 .f32) (r : Fin 5000) (j : Fin 128) :
    (k0_pay1 (F := Ideal) x0 x1 : S5000x128.Idx → EReal) (ValueIdx.ix2 r j)
      = ∑ k : Fin 128, (x0 : S5000x128.Idx → EReal) (ValueIdx.ix2 r k) * (x1 : S128x128.Idx → EReal) (ValueIdx.ix2 k j) := by
  unfold k0_pay1
  exact blockProd_apply x0 x1 r j

/-- The second region's payload at an index: besides, the cast of a shape to itself is the identity. -/
theorem pay1_apply (x0 : Vec Ideal S5000x128 .f32) (x1 : Vec Ideal S128x128 .f32) (r : Fin 5000) (j : Fin 128) :
    (k1_pay1 (F := Ideal) x0 x1 : S5000x128.Idx → EReal) (ValueIdx.ix2 r j)
      = ∑ k : Fin 128, (x0 : S5000x128.Idx → EReal) (ValueIdx.ix2 r k) * (x1 : S128x128.Idx → EReal) (ValueIdx.ix2 k j) := by
  unfold k1_pay1
  simp only [shapeCast_self]
  exact blockProd_apply x0 x1 r j

/-! ## The whole-array product -/

/-- Entry `(i, j)` of the matrix product of an activation array and a weight matrix. -/
def prodAt (a : S50000x128.Idx → EReal) (w : S128x128.Idx → EReal) (i : Fin 50000) (j : Fin 128) : EReal :=
  ∑ k : Fin 128, a (ValueIdx.ix2 i k) * w (ValueIdx.ix2 k j)

theorem prodAt_eq (a : S50000x128.Idx → EReal) (w : S128x128.Idx → EReal) (i : Fin 50000) (j : Fin 128) :
    prodAt a w i j = ∑ k : Fin 128, a (ValueIdx.ix2 i k) * w (ValueIdx.ix2 k j) := rfl

/-- The matrix product as an array. -/
def prod (a : S50000x128.Idx → EReal) (w : S128x128.Idx → EReal) : S50000x128.Idx → EReal :=
  fun q => prodAt a w ⟨(q 0).val, (q 0).isLt⟩ ⟨(q 1).val, (q 1).isLt⟩

theorem prod_ix2 (a : S50000x128.Idx → EReal) (w : S128x128.Idx → EReal) (i : Fin 50000) (j : Fin 128) :
    prod a w (ValueIdx.ix2 i j) = ∑ k : Fin 128, a (ValueIdx.ix2 i k) * w (ValueIdx.ix2 k j) := rfl

/-- The product array at an index whose coordinates are `i` and `j`. -/
theorem prod_apply (a : S50000x128.Idx → EReal) (w : S128x128.Idx → EReal) (q : S50000x128.Idx) (i : Fin 50000) (j : Fin 128)
    (h0 : (q 0).val = i.val) (h1 : (q 1).val = j.val) : prod a w q = prodAt a w i j := by
  unfold prod
  have ei : (⟨(q 0).val, (q 0).isLt⟩ : Fin 50000) = i := Fin.ext h0
  have ej : (⟨(q 1).val, (q 1).isLt⟩ : Fin 128) = j := Fin.ext h1
  rw [ei, ej]

/-- A block product is the block of the whole product: when the rows are rows `5000 b + r` of the array and the
    weights are the whole matrix, entry `(r, j)` of the block's product is entry `(5000 b + r, j)` of the arrays'. -/
theorem pay0_eq_prod (x0 : Vec Ideal S5000x128 .f32) (x1 : Vec Ideal S128x128 .f32)
    (a : S50000x128.Idx → EReal) (w : S128x128.Idx → EReal) (b : Nat)
    (h0 : ∀ (r : Fin 5000) (k : Fin 128) (i : Fin 50000), i.val = b * 5000 + r.val →
      (x0 : S5000x128.Idx → EReal) (ValueIdx.ix2 r k) = a (ValueIdx.ix2 i k))
    (h1 : ∀ k j : Fin 128, (x1 : S128x128.Idx → EReal) (ValueIdx.ix2 k j) = w (ValueIdx.ix2 k j))
    (r : Fin 5000) (j : Fin 128) (i : Fin 50000) (hi : i.val = b * 5000 + r.val) :
    (k0_pay1 (F := Ideal) x0 x1 : S5000x128.Idx → EReal) (ValueIdx.ix2 r j) = prodAt a w i j := by
  rw [pay0_apply]
  exact Finset.sum_congr rfl fun k _ => by rw [h0 r k i hi, h1 k j]

theorem pay1_eq_prod (x0 : Vec Ideal S5000x128 .f32) (x1 : Vec Ideal S128x128 .f32)
    (a : S50000x128.Idx → EReal) (w : S128x128.Idx → EReal) (b : Nat)
    (h0 : ∀ (r : Fin 5000) (k : Fin 128) (i : Fin 50000), i.val = b * 5000 + r.val →
      (x0 : S5000x128.Idx → EReal) (ValueIdx.ix2 r k) = a (ValueIdx.ix2 i k))
    (h1 : ∀ k j : Fin 128, (x1 : S128x128.Idx → EReal) (ValueIdx.ix2 k j) = w (ValueIdx.ix2 k j))
    (r : Fin 5000) (j : Fin 128) (i : Fin 50000) (hi : i.val = b * 5000 + r.val) :
    (k1_pay1 (F := Ideal) x0 x1 : S5000x128.Idx → EReal) (ValueIdx.ix2 r j) = prodAt a w i j := by
  rw [pay1_apply]
  exact Finset.sum_congr rfl fun k _ => by rw [h0 r k i hi, h1 k j]

/-! ## The first region -/

section Region0

variable (V : (c : Dev nD) → (b : Ref sig .tc) → Buf (Elt Ideal) ((c : Thread nD τ).loc b))

/-- The printed index maps over the grid: the rows' and the output's block index is the point on axis 0 and zero on
    axis 1; the weights' is zero on both. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of rows at point `t` is rows `5000 t + r` of the activation array. -/
theorem rows0_apply (c : Dev nD) (t : Fin cfg0.N) (r : Fin 5000) (k : Fin 128) (i : Fin 50000) (hi : i.val = t.val * 5000 + r.val) :
    (Lin0.rows V c t : S5000x128.Idx → EReal) (ValueIdx.ix2 r k) = (V c main_arg0 : S50000x128.Idx → EReal) (ValueIdx.ix2 i k) := by
  obtain ⟨e0, e1, -⟩ := idx_facts0 t
  show ((cfg0.win 0).blk t).view.read (Elt Ideal) (V c (Pipeline.arrRef spec0 0)) (ValueIdx.ix2 r k) = _
  rw [View.read_apply]
  show V c main_arg0 _ = V c main_arg0 _
  congr 1
  funext a; apply Fin.ext
  match a with
  | ⟨0, _⟩ => show win0_0.index t (0 : Fin 2) * 5000 + 1 * r.val = i.val; rw [e0, hi]; omega
  | ⟨1, _⟩ => show win0_0.index t (1 : Fin 2) * 128 + 1 * k.val = k.val; rw [e1]; omega

/-- The weights' block at every point is the whole weight matrix. -/
theorem wts0_apply (c : Dev nD) (t : Fin cfg0.N) (k j : Fin 128) :
    (Lin0.wts V c t : S128x128.Idx → EReal) (ValueIdx.ix2 k j) = (V c main_arg3 : S128x128.Idx → EReal) (ValueIdx.ix2 k j) := by
  obtain ⟨-, -, e2, e3, -⟩ := idx_facts0 t
  show ((cfg0.win 1).blk t).view.read (Elt Ideal) (V c (Pipeline.arrRef spec0 1)) (ValueIdx.ix2 k j) = _
  rw [View.read_apply]
  show V c main_arg3 _ = V c main_arg3 _
  congr 1
  funext a; apply Fin.ext
  match a with
  | ⟨0, _⟩ => show win0_1.index t (0 : Fin 2) * 128 + 1 * k.val = k.val; rw [e2]; omega
  | ⟨1, _⟩ => show win0_1.index t (1 : Fin 2) * 128 + 1 * j.val = j.val; rw [e3]; omega

/-- What point `t` writes back is block `t` of the product of the arrays as the region finds them. -/
theorem flushed0_eq (c : Dev nD) (t : Fin cfg0.N) :
    (Lin0.dat (F := Ideal) V c).flushed 2 t
      = ((cfg0.win 2).blk t).view.read (Elt Ideal) (prod (V c main_arg0) (V c main_arg3)) := by
  show (cfg0.win 2).cut (grid0.coords t) ((Lin0.dat (F := Ideal) V c).after 2 t) = _
  rw [Lin0.after_2]
  unfold Lin0.outBlk
  obtain ⟨-, -, -, -, e4, e5⟩ := idx_facts0 t
  funext y
  obtain ⟨r, j, rfl⟩ : ∃ (r : Fin 5000) (j : Fin 128), y = ValueIdx.ix2 r j := ⟨y 0, y 1, ValueIdx.eq_ix2 y⟩
  have hi : t.val * 5000 + r.val < 50000 := by have := t.isLt; have : t.val < 10 := this; omega
  show k0_pay1 (F := Ideal) (Lin0.rows V c t) (Lin0.wts V c t) (ValueIdx.ix2 r j) = _
  rw [pay0_eq_prod (Lin0.rows V c t) (Lin0.wts V c t) (V c main_arg0) (V c main_arg3) t.val
    (rows0_apply V c t) (wts0_apply V c t) r j ⟨t.val * 5000 + r.val, hi⟩ rfl]
  rw [View.read_apply]
  refine (prod_apply _ _ _ _ _ ?_ ?_).symm
  · show win0_2.index t (0 : Fin 2) * 5000 + 1 * r.val = t.val * 5000 + r.val
    rw [e4]; omega
  · show win0_2.index t (1 : Fin 2) * 128 + 1 * j.val = j.val
    rw [e5]; omega

end Region0

section Final0

variable (V : (c : Dev nD) → (b : Ref sig .tc) → Buf (Elt Ideal) ((c : Thread nD τ).loc b))

/-- An index of the output array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v27).slice (win0_2.rect t)).set ↔ _
  rw [View.set_slice_whole, Rect.mem_set_unit]
  exact Iff.rfl

/-- Every block of rows of the output is some point's. -/
theorem idx_onto0 : ∀ q : Fin 10, ∃ t : Fin cfg0.N, win0_2.index t = ![q.val, 0] :=
  (by decide +kernel : ∀ q : Fin 10, ∃ t : Fin grid0.N, win0_2.index t = ![q.val, 0])

/-- The output's blocks cover the array: row `r` is in the block of the point whose block index is `r / 5000`. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the first region is the matrix product of the activation and weight arrays as the region
    finds them. -/
theorem lin0_array (c : Dev nD) :
    (Lin0.dat (F := Ideal) V c).arrAt 2 cfg0.N = prod (V c main_arg0) (V c main_arg3) :=
  (Lin0.dat (F := Ideal) V c).arrAt_eq_of_cover 2 (prod (V c main_arg0) (V c main_arg3)) (fun t _ => flushed0_eq V c t) cover0

/-- The same, entry by entry: entry `(i, j)` is the sum over `k` of the activations' `(i, k)` times the weights' `(k, j)`. -/
theorem lin0_final (c : Dev nD) (i : Fin 50000) (j : Fin 128) :
    ((Lin0.dat (F := Ideal) V c).arrAt 2 cfg0.N : S50000x128.Idx → EReal) (ValueIdx.ix2 i j)
      = prodAt (V c main_arg0) (V c main_arg3) i j := by
  rw [lin0_array V c]
  rfl

end Final0

/-! ## The second region -/

section Region1

variable (V : (c : Dev nD) → (b : Ref sig .tc) → Buf (Elt Ideal) ((c : Thread nD τ).loc b))

/-- The printed index maps over the grid: the rows' and the output's block index is the point on axis 0 and zero on
    axis 1; the weights' is zero on both. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The block of rows at point `t` is rows `5000 t + r` of the activation array. -/
theorem rows1_apply (c : Dev nD) (t : Fin cfg1.N) (r : Fin 5000) (k : Fin 128) (i : Fin 50000) (hi : i.val = t.val * 5000 + r.val) :
    (Lin1.rows V c t : S5000x128.Idx → EReal) (ValueIdx.ix2 r k) = (V c main_v48 : S50000x128.Idx → EReal) (ValueIdx.ix2 i k) := by
  obtain ⟨e0, e1, -⟩ := idx_facts1 t
  show ((cfg1.win 0).blk t).view.read (Elt Ideal) (V c (Pipeline.arrRef spec1 0)) (ValueIdx.ix2 r k) = _
  rw [View.read_apply]
  show V c main_v48 _ = V c main_v48 _
  congr 1
  funext a; apply Fin.ext
  match a with
  | ⟨0, _⟩ => show win1_0.index t (0 : Fin 2) * 5000 + 1 * r.val = i.val; rw [e0, hi]; omega
  | ⟨1, _⟩ => show win1_0.index t (1 : Fin 2) * 128 + 1 * k.val = k.val; rw [e1]; omega

/-- The weights' block at every point is the whole weight matrix. -/
theorem wts1_apply (c : Dev nD) (t : Fin cfg1.N) (k j : Fin 128) :
    (Lin1.wts V c t : S128x128.Idx → EReal) (ValueIdx.ix2 k j) = (V c main_arg5 : S128x128.Idx → EReal) (ValueIdx.ix2 k j) := by
  obtain ⟨-, -, e2, e3, -⟩ := idx_facts1 t
  show ((cfg1.win 1).blk t).view.read (Elt Ideal) (V c (Pipeline.arrRef spec1 1)) (ValueIdx.ix2 k j) = _
  rw [View.read_apply]
  show V c main_arg5 _ = V c main_arg5 _
  congr 1
  funext a; apply Fin.ext
  match a with
  | ⟨0, _⟩ => show win1_1.index t (0 : Fin 2) * 128 + 1 * k.val = k.val; rw [e2]; omega
  | ⟨1, _⟩ => show win1_1.index t (1 : Fin 2) * 128 + 1 * j.val = j.val; rw [e3]; omega

/-- What point `t` writes back is block `t` of the product of the arrays as the region finds them. -/
theorem flushed1_eq (c : Dev nD) (t : Fin cfg1.N) :
    (Lin1.dat (F := Ideal) V c).flushed 2 t
      = ((cfg1.win 2).blk t).view.read (Elt Ideal) (prod (V c main_v48) (V c main_arg5)) := by
  show (cfg1.win 2).cut (grid1.coords t) ((Lin1.dat (F := Ideal) V c).after 2 t) = _
  rw [Lin1.after_2]
  unfold Lin1.outBlk
  obtain ⟨-, -, -, -, e4, e5⟩ := idx_facts1 t
  funext y
  obtain ⟨r, j, rfl⟩ : ∃ (r : Fin 5000) (j : Fin 128), y = ValueIdx.ix2 r j := ⟨y 0, y 1, ValueIdx.eq_ix2 y⟩
  have hi : t.val * 5000 + r.val < 50000 := by have := t.isLt; have : t.val < 10 := this; omega
  show k1_pay1 (F := Ideal) (Lin1.rows V c t) (Lin1.wts V c t) (ValueIdx.ix2 r j) = _
  rw [pay1_eq_prod (Lin1.rows V c t) (Lin1.wts V c t) (V c main_v48) (V c main_arg5) t.val
    (rows1_apply V c t) (wts1_apply V c t) r j ⟨t.val * 5000 + r.val, hi⟩ rfl]
  rw [View.read_apply]
  refine (prod_apply _ _ _ _ _ ?_ ?_).symm
  · show win1_2.index t (0 : Fin 2) * 5000 + 1 * r.val = t.val * 5000 + r.val
    rw [e4]; omega
  · show win1_2.index t (1 : Fin 2) * 128 + 1 * j.val = j.val
    rw [e5]; omega

end Region1

section Final1

variable (V : (c : Dev nD) → (b : Ref sig .tc) → Buf (Elt Ideal) ((c : Thread nD τ).loc b))

/-- An index of the output array is in point `t`'s block iff each coordinate is in the block's range on its axis. -/
theorem mem_blk1 (t : Fin cfg1.N) (i : S50000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v49).slice (win1_2.rect t)).set ↔ _
  rw [View.set_slice_whole, Rect.mem_set_unit]
  exact Iff.rfl

/-- Every block of rows of the output is some point's. -/
theorem idx_onto1 : ∀ q : Fin 10, ∃ t : Fin cfg1.N, win1_2.index t = ![q.val, 0] :=
  (by decide +kernel : ∀ q : Fin 10, ∃ t : Fin grid1.N, win1_2.index t = ![q.val, 0])

/-- The output's blocks cover the array: row `r` is in the block of the point whose block index is `r / 5000`. -/
theorem cover1 (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := idx_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the second region is the matrix product of the activation and weight arrays as the region
    finds them. -/
theorem lin1_array (c : Dev nD) :
    (Lin1.dat (F := Ideal) V c).arrAt 2 cfg1.N = prod (V c main_v48) (V c main_arg5) :=
  (Lin1.dat (F := Ideal) V c).arrAt_eq_of_cover 2 (prod (V c main_v48) (V c main_arg5)) (fun t _ => flushed1_eq V c t) cover1

/-- The same, entry by entry: entry `(i, j)` is the sum over `k` of the activations' `(i, k)` times the weights' `(k, j)`. -/
theorem lin1_final (c : Dev nD) (i : Fin 50000) (j : Fin 128) :
    ((Lin1.dat (F := Ideal) V c).arrAt 2 cfg1.N : S50000x128.Idx → EReal) (ValueIdx.ix2 i j)
      = prodAt (V c main_v48) (V c main_arg5) i j := by
  rw [lin1_array V c]
  rfl

end Final1

end Cert.KernelIdeal.LinValue

end
-- ==== Proof.Bridge.Conv1.lean ====
/-
  The first layer: the first region's output array is the reference's matrix product of the node features and the first
  weights (block by block the kernel writes the rows' products, which together are the one product), and the host
  operations after it — gather of source rows, scaling, scatter-add at the destinations, self loop, bias, rectifier — are
  the reference's on the same operands.
-/
import proofs.«427407_j28939489640781_1_alg».proof.Proof.Bridge.Keep
import proofs.«427407_j28939489640781_1_alg».proof.Proof.KI.LinValue

set_option maxRecDepth 16384

noncomputable section

namespace Cert.Bridge

open Idealize.ShloMosaic Idealize.ShloMosaic.TcCoe Idealize.SL.Sem
open Cert.KernelIdeal Cert.KernelIdeal.Gen Cert.KernelIdeal.Run

variable (m : (ℓ : Loc nD τ sig) → Buf (Elt Ideal) ℓ) (c : Dev nD)

/-! ## The first convolution -/

theorem W2_src : W2 (F := Ideal) m c (Proc.devRef .tc main_v1) = Cert.ReferenceIdeal.Read.val_main_v1 (F := Ideal) (a1 m c) :=
  (k12 m c main_v1 (by decide)).trans (W1_src m c)
theorem W2_dst : W2 (F := Ideal) m c (Proc.devRef .tc main_v3) = Cert.ReferenceIdeal.Read.val_main_v3 (F := Ideal) (a1 m c) :=
  (k12 m c main_v3 (by decide)).trans (W1_dst m c)
theorem W2_norm : W2 (F := Ideal) m c (Proc.devRef .tc main_v25) = Cert.ReferenceIdeal.Read.val_main_v26 (F := Ideal) (a1 m c) :=
  (k12 m c main_v25 (by decide)).trans (W1_norm m c)
theorem W2_self : W2 (F := Ideal) m c (Proc.devRef .tc main_v26) = Cert.ReferenceIdeal.Read.val_main_v40 (F := Ideal) (a1 m c) :=
  (k12 m c main_v26 (by decide)).trans (W1_self m c)
theorem W2_bias : W2 (F := Ideal) m c (Proc.devRef .tc main_arg4) = a4 m c :=
  (k12 m c main_arg4 (by decide)).trans (k01 m c main_arg4 (by decide))

set_option maxHeartbeats 8000000 in
/-- The first convolution's output before the rectifier, from the first linear transform's product: the kernel's host
    operations between the two regions are the reference's, operation by operation. -/
theorem W3_conv (hlin : W2 (F := Ideal) m c (Proc.devRef .tc main_v27) = Cert.ReferenceIdeal.Read.val_main_v4 (F := Ideal) (a0 m c) (a3 m c)) :
    W3 (F := Ideal) m c (Proc.devRef .tc main_v47) = Cert.ReferenceIdeal.Read.val_main_v47 (F := Ideal) (a0 m c) (a1 m c) (a3 m c) (a4 m c) := by
  show StableHlo.after hostOps1 (W2 m c) (Proc.devRef .tc main_v47) = _
  after_results_simp
  rw [hlin, W2_src, W2_dst, W2_norm, W2_self, W2_bias]
  rfl
set_option maxHeartbeats 8000000 in
/-- Its rectified output. -/
theorem W4_relu (hlin : W2 (F := Ideal) m c (Proc.devRef .tc main_v27) = Cert.ReferenceIdeal.Read.val_main_v4 (F := Ideal) (a0 m c) (a3 m c)) :
    W4 (F := Ideal) m c (Proc.devRef .tc main_v48) = Cert.ReferenceIdeal.Read.val_main_v48 (F := Ideal) (a0 m c) (a1 m c) (a3 m c) (a4 m c) := by
  have h47 := W3_conv m c hlin
  show StableHlo.after hostOps1_1 (W3 m c) (Proc.devRef .tc main_v48) = _
  generalize W3 m c = V3 at h47 ⊢
  after_results_simp
  rw [h47]
  rfl

/-! ## The three regions' outputs are the reference's operations on the same operands -/

theorem ix2_lidx (q : S50000x128.Idx) (k : Fin 128) :
    ValueIdx.ix2 (⟨(q 0).val, (q 0).isLt⟩ : Fin 50000) k = Cert.ReferenceIdeal.Read.lidx_main_v4 q k :=
  funext fun a => Fin.ext (by match a with | ⟨0, _⟩ => rfl | ⟨1, _⟩ => rfl)
theorem ix2_ridx (q : S50000x128.Idx) (k : Fin 128) :
    ValueIdx.ix2 k (⟨(q 1).val, (q 1).isLt⟩ : Fin 128) = Cert.ReferenceIdeal.Read.ridx_main_v4 q k :=
  funext fun a => Fin.ext (by match a with | ⟨0, _⟩ => rfl | ⟨1, _⟩ => rfl)

/-- The first linear transform: block by block the kernel writes the rows' products with the whole weight matrix, which
    together are the reference's one matrix product. -/
theorem lin0_eq : W2 (F := Ideal) m c (Proc.devRef .tc main_v27) = Cert.ReferenceIdeal.Read.val_main_v4 (F := Ideal) (a0 m c) (a3 m c) := by
  refine (show W2 m c (Proc.devRef .tc main_v27) = _ from W2_arr (F := Ideal) m c 2).trans ?_
  rw [LinValue.lin0_array (Run.V1 m) c]
  have e0 : Run.V1 (F := Ideal) m c main_arg0 = a0 m c := k01 m c main_arg0 (by decide)
  have e3 : Run.V1 (F := Ideal) m c main_arg3 = a3 m c := k01 m c main_arg3 (by decide)
  rw [e0, e3]
  funext q
  rw [Cert.ReferenceIdeal.Read.val_main_v4_apply]
  show LinValue.prodAt (a0 m c) (a3 m c) ⟨(q 0).val, (q 0).isLt⟩ ⟨(q 1).val, (q 1).isLt⟩ = _
  rw [LinValue.prodAt_eq]
  refine Finset.sum_congr rfl fun k _ => ?_
  rw [ix2_lidx, ix2_ridx]

end Cert.Bridge

end
-- ==== Proof.LibGatherScatter.lean ====
/-
  ROW GATHER AND ROW SCATTER-ADD OF A TWO-AXIS TABLE, READ AT ONE ELEMENT.

  A table `x : [N, W]` and a column `idx : [E, 1]` of row numbers (integer words, read signed). Two host operations
  with the dimension numbers of `x[idx]` and of `x.at[idx].add(u)` along the row axis:

  * the GATHER (offset axes `[1]`, collapsed slice axes `[0]`, start index map `[0]`, index vector on axis 1, no
    batching axes) has result `[E, W]`; its element (e, j) is `x[r, j]` where `r` is `idx[e, 0]` clamped into
    `[0, N − 1]` (`gather_apply`), so `x[idx[e, 0], j]` when the row number is in range (`gather_apply_of_inRange`);
  * the SCATTER-ADD (update window axes `[1]`, inserted window axes `[0]`, scatter axes to operand axes `[0]`,
    index vector on axis 1) of updates `u : [E, W]` has, at the ideal instance, the element (n, j)
    `x[n, j] + ∑ over the e with idx[e, 0] = n of u[e, j]` (`hostScatterAdd_apply` / `scatterAdd_apply`): the row number
    is NOT clamped, and an update row whose number is no row of the table is dropped — no range condition is needed.

  Both act on each column by itself, so they commute with any choice of columns `c : Fin W' → Fin W`, in particular
  with taking the block of columns that starts at an offset (`gather_cols` / `gather_cols_offset`,
  `hostScatterAdd_cols` / `hostScatterAdd_cols_offset`, and `scatterAdd_cols` / `scatterAdd_cols_offset` on
  `Host.scatterAdd`): the gather of a concatenation `[h | p]` along the columns is, column block by column block, the
  gather of `h` and the gather of `p`, and likewise the scatter-add.

  Every lemma takes ANY dimension-number record whose lists are the ones above (hypotheses on the fields, each closed
  by `rfl` at a literal record), at any extents `N`, `E`, `W`, and speaks of indices built by `ix2` from coordinates.
-/
import Idealize.ShloMosaic.PureOps.Ideal
import Idealize.ShloMosaic.Lib.ValueIdx

open scoped BigOperators

namespace Cert.Bridge.GS

open Idealize.ShloMosaic Idealize.ShloMosaic.ValueIdx

/-- An entry of a list that is a singleton is its one element. -/
private theorem getElem_of_eq_singleton {β : Type} {l : List β} {b : β} (hl : l = [b]) {k : Nat} (hk : k < l.length) :
    l[k] = b := by
  subst hl
  have hk0 : k = 0 := by simpa using hk
  subst hk0; rfl

/-! ## The gather -/

section Gather
variable {α : Type} {N E W w : Nat}

/-- THE OPERAND INDEX of result element (e, j): the row is the start index `idx[e, 0]` read signed and clamped into
    `[0, N − 1]` (the row axis is collapsed, its slice one row), the column is `j` (the one offset axis). -/
theorem operandIdx_rows (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (j : Fin W) :
    d.operandIdx (ix2 e j) idx = ix2 ⟨min (idx (ix2 e 0)).toInt.toNat (N - 1), by omega⟩ j := by
  obtain ⟨od, cd, ob, sb, sim, ivd, ss, wf⟩ := d
  dsimp only at hoff hcoll hob hsim hivd
  subst hoff hcoll hob hsim hivd
  have hsl : ss 0 = 1 :=
    GatherDims.slice_collapsed (⟨[1], [0], [], sb, [0], 1, ss, wf⟩ : GatherDims ⟨2, ![N, W]⟩ ⟨2, ![E, 1]⟩ ⟨2, ![E, W]⟩) 0
      (List.mem_singleton.mpr rfl)
  funext a
  match a with
  | ⟨0, _⟩ =>
    refine Fin.ext ?_
    show GatherDims.start _ (ix2 e j) idx 0 + GatherDims.batchCoord _ (ix2 e j) 0 + GatherDims.offCoord _ (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    refine Fin.ext ?_
    match b with
    | ⟨0, _⟩ => rfl
    | ⟨1, _⟩ => rfl
  | ⟨1, _⟩ =>
    refine Fin.ext ?_
    show GatherDims.start _ (ix2 e j) idx 1 + GatherDims.batchCoord _ (ix2 e j) 1 + GatherDims.offCoord _ (ix2 e j) 1 = _
    rw [GatherDims.batchCoord_eq_zero _ _ _ List.not_mem_nil]
    unfold GatherDims.start GatherDims.offCoord
    rw [dif_neg (show (1 : Fin 2) ∉ [0] by decide),
      dif_pos ((GatherDims.mem_sKept _ _).mpr ⟨show (1 : Fin 2) ∉ [0] by decide, List.not_mem_nil⟩)]
    rw [getElem_of_eq_singleton (b := (1 : Fin 2)) rfl]
    show 0 + 0 + j.val = j.val
    omega

/-- THE GATHER READ AT (e, j), no range condition: the table at the row the start index `idx[e, 0]` names, read
    signed and clamped into `[0, N − 1]` (StableHLO clamps a start index so that the slice fits), at column `j`. -/
theorem gather_apply (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W) :
    Host.gather d x idx (ix2 e j) = x (ix2 ⟨min (idx (ix2 e 0)).toInt.toNat (N - 1), by omega⟩ j) := by
  unfold Host.gather
  rw [operandIdx_rows hN d hoff hcoll hob hsim hivd idx e j]

/-- (G1) THE GATHER READ AT (e, j), start index in range: when `0 ≤ idx[e, 0] < N` (read signed) the clamp does
    nothing, and the result is the table's row `idx[e, 0]` at column `j`. -/
theorem gather_apply_of_inRange (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W)
    (h0 : 0 ≤ (idx (ix2 e 0)).toInt) (h1 : (idx (ix2 e 0)).toInt < N) :
    Host.gather d x idx (ix2 e j) = x (ix2 ⟨(idx (ix2 e 0)).toInt.toNat, by omega⟩ j) := by
  have hN : 0 < N := by omega
  rw [gather_apply hN d hoff hcoll hob hsim hivd x idx e j]
  congr 2
  refine Fin.ext ?_
  show min (idx (ix2 e 0)).toInt.toNat (N - 1) = (idx (ix2 e 0)).toInt.toNat
  omega

/-- (G2) THE GATHER COMMUTES WITH A CHOICE OF COLUMNS. If a table `y` of width `W'` is the columns `c 0, c 1, …` of a
    table `x` of width `W` (`y[n, j'] = x[n, c j']`), then the gather of `y` at (e, j') is the gather of `x` at
    (e, c j'), at the same start indices — in range or not: both sides clamp the start index alike. -/
theorem gather_cols {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (c : Fin W' → Fin W)
    (x : (⟨2, ![N, W]⟩ : Shape).Idx → α) (y : (⟨2, ![N, W']⟩ : Shape).Idx → α)
    (hxy : ∀ (n : Fin N) (j' : Fin W'), y (ix2 n j') = x (ix2 n (c j')))
    (idx : IVec ⟨2, ![E, 1]⟩ w) (e : Fin E) (j' : Fin W') :
    Host.gather d' y idx (ix2 e j') = Host.gather d x idx (ix2 e (c j')) := by
  rw [gather_apply hN d' hoff' hcoll' hob' hsim' hivd' y idx e j',
    gather_apply hN d hoff hcoll hob hsim hivd x idx e (c j')]
  exact hxy _ _

/-- (G2), the columns a contiguous run: if `y[n, j'] = x[n, off + j']` (`y` is the column block of `x` that starts at
    `off`: a slice of a concatenation along the columns), then the gather of `y` at (e, j') is the gather of `x` at
    (e, off + j'). -/
theorem gather_cols_offset {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (off : Nat) (hW : off + W' ≤ W)
    (x : (⟨2, ![N, W]⟩ : Shape).Idx → α) (y : (⟨2, ![N, W']⟩ : Shape).Idx → α)
    (hxy : ∀ (n : Fin N) (j' : Fin W'), y (ix2 n j') = x (ix2 n ⟨off + j'.val, by omega⟩))
    (idx : IVec ⟨2, ![E, 1]⟩ w) (e : Fin E) (j' : Fin W') :
    Host.gather d' y idx (ix2 e j') = Host.gather d x idx (ix2 e ⟨off + j'.val, by omega⟩) :=
  gather_cols hN d hoff hcoll hob hsim hivd d' hoff' hcoll' hob' hsim' hivd' (fun j' => ⟨off + j'.val, by omega⟩) x y hxy idx e j'

end Gather

/-! ## The scatter-add -/

/-- Two rank-2 indices built from coordinates are equal exactly when the coordinates are. -/
theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

section Scatter
variable {N E W w : Nat}

/-- WHERE AN UPDATE LANDS. Update element (e, j) of a row scatter (the table's row axis inserted and scattered, the
    column axis the window; one row number per update row, on the index vector's axis 1) lands at
    (`idx[e, 0]`, j) when the row number, read signed and NOT clamped, is a row of the table, and nowhere when it is
    not. -/
theorem resultIdx?_rows (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j : Fin W) :
    d.resultIdx? (ix2 e j) idx =
      if h : 0 ≤ (idx (ix2 e 0)).toInt ∧ (idx (ix2 e 0)).toInt < N then
        some (ix2 ⟨(idx (ix2 e 0)).toInt.toNat, by omega⟩ j)
      else none := by
  obtain ⟨uw, iw, sd, ivd, wf⟩ := d
  dsimp only at huw hiw hsd hivd
  subst huw hiw hsd hivd
  set D : ScatterDims ⟨2, ![N, W]⟩ ⟨2, ![E, 1]⟩ ⟨2, ![E, W]⟩ := ⟨[1], [0], [0], 1, wf⟩ with hD
  have hs0 : D.start (ix2 e j) idx 0 = (idx (ix2 e 0)).toInt := by
    unfold ScatterDims.start
    rw [dif_pos (show (0 : Fin 2) ∈ D.scatterDimsToOperandDims from List.mem_singleton.mpr rfl)]
    congr 2
    funext b
    refine Fin.ext ?_
    match b with
    | ⟨0, _⟩ => rfl
    | ⟨1, _⟩ => rfl
  have hs1 : D.start (ix2 e j) idx 1 = 0 := by
    unfold ScatterDims.start
    rw [dif_neg (show (1 : Fin 2) ∉ D.scatterDimsToOperandDims from (by decide : (1 : Fin 2) ∉ [0]))]
  have hw0 : D.window (ix2 e j) 0 = 0 := by
    unfold ScatterDims.window
    rw [dif_neg (show (0 : Fin 2) ∉ D.sKept from by simp [hD, ScatterDims.sKept, Shape.kept])]
  have hw1 : D.window (ix2 e j) 1 = j.val := by
    unfold ScatterDims.window
    rw [dif_pos (show (1 : Fin 2) ∈ D.sKept from by simp [hD, ScatterDims.sKept, Shape.kept])]
    rw [getElem_of_eq_singleton (b := (1 : Fin 2)) rfl]
  unfold ScatterDims.resultIdx?
  by_cases h : 0 ≤ (idx (ix2 e 0)).toInt ∧ (idx (ix2 e 0)).toInt < N
  · have hall : ∀ a, 0 ≤ D.start (ix2 e j) idx a + D.window (ix2 e j) a ∧
        D.start (ix2 e j) idx a + D.window (ix2 e j) a < (⟨2, ![N, W]⟩ : Shape).size a := by
      intro a
      match a with
      | ⟨0, _⟩ =>
        show 0 ≤ D.start (ix2 e j) idx 0 + D.window (ix2 e j) 0 ∧ D.start (ix2 e j) idx 0 + D.window (ix2 e j) 0 < (N : Int)
        rw [hs0, hw0]; omega
      | ⟨1, _⟩ =>
        show 0 ≤ D.start (ix2 e j) idx 1 + D.window (ix2 e j) 1 ∧ D.start (ix2 e j) idx 1 + D.window (ix2 e j) 1 < (W : Int)
        rw [hs1, hw1]; have := j.isLt; omega
    rw [dif_pos hall, dif_pos h]
    congr 1
    funext a
    refine Fin.ext ?_
    match a with
    | ⟨0, _⟩ =>
      show (D.start (ix2 e j) idx 0 + D.window (ix2 e j) 0).toNat = (idx (ix2 e 0)).toInt.toNat
      rw [hs0, hw0]; simp
    | ⟨1, _⟩ =>
      show (D.start (ix2 e j) idx 1 + D.window (ix2 e j) 1).toNat = j.val
      rw [hs1, hw1]; simp
  · rw [dif_neg h, dif_neg]
    intro hall
    have h0 : 0 ≤ D.start (ix2 e j) idx 0 + D.window (ix2 e j) 0 ∧ D.start (ix2 e j) idx 0 + D.window (ix2 e j) 0 < (N : Int) :=
      hall 0
    rw [hs0, hw0] at h0
    exact h (by omega)

/-- An update element (e, j') lands at the table's (n, j) exactly when its row number `idx[e, 0]`, read signed, is `n`
    and its column is `j`. -/
theorem resultIdx?_eq_some_iff (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j' : Fin W) (n : Fin N) (j : Fin W) :
    d.resultIdx? (ix2 e j') idx = some (ix2 n j) ↔ (idx (ix2 e 0)).toInt = (n.val : Int) ∧ j' = j := by
  rw [resultIdx?_rows d huw hiw hsd hivd idx e j']
  have hn := n.isLt
  split
  · next h =>
    rw [Option.some.injEq, ix2_inj]
    constructor
    · rintro ⟨h1, h2⟩
      refine ⟨?_, h2⟩
      have := congrArg Fin.val h1
      simp only at this
      omega
    · rintro ⟨h1, h2⟩
      refine ⟨Fin.ext ?_, h2⟩
      show (idx (ix2 e 0)).toInt.toNat = n.val
      omega
  · next h =>
    constructor
    · intro h'; exact absurd h' (by simp)
    · rintro ⟨h1, _⟩; exact absurd (show 0 ≤ (idx (ix2 e 0)).toInt ∧ (idx (ix2 e 0)).toInt < N by omega) h

/-- (S1) THE SCATTER-ADD READ AT (n, j), no range condition: the table's element plus the sum, over the update rows
    `e` whose row number `idx[e, 0]` (read signed, not clamped) is `n`, of the update's element (e, j). An update
    row whose number is not a row of the table lands nowhere. -/
theorem hostScatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : (⟨2, ![N, W]⟩ : Shape).Idx → EReal) (idx : IVec ⟨2, ![E, 1]⟩ w) (upd : (⟨2, ![E, W]⟩ : Shape).Idx → EReal)
    (n : Fin N) (j : Fin W) :
    Ideal.hostScatterAdd d x idx upd (ix2 n j) =
      x (ix2 n j) + ∑ e ∈ Finset.univ.filter (fun e : Fin E => (idx (ix2 e 0)).toInt = (n.val : Int)), upd (ix2 e j) := by
  unfold Ideal.hostScatterAdd
  congr 1
  rw [Finset.sum_filter, sum_idx2, Finset.sum_filter]
  refine Finset.sum_congr rfl fun e _ => ?_
  simp only [resultIdx?_eq_some_iff d huw hiw hsd hivd idx e _ n j]
  by_cases h : (idx (ix2 e 0)).toInt = (n.val : Int)
  · simp only [h, true_and, if_true]
    rw [Finset.sum_ite_eq' Finset.univ j (fun j' => upd (ix2 e j'))]
    simp
  · simp only [h, false_and, if_false]
    exact Finset.sum_const_zero

/-- (S2) THE SCATTER-ADD COMMUTES WITH A CHOICE OF COLUMNS. If the table `x'` and the updates `upd'`, of width `W'`,
    are the columns `c 0, c 1, …` of `x` and `upd`, of width `W`, then the scatter-add of `upd'` into `x'` at (n, j')
    is the scatter-add of `upd` into `x` at (n, c j'), at the same row numbers. -/
theorem hostScatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : (⟨2, ![N, W]⟩ : Shape).Idx → EReal) (x' : (⟨2, ![N, W']⟩ : Shape).Idx → EReal)
    (hx : ∀ (n : Fin N) (j' : Fin W'), x' (ix2 n j') = x (ix2 n (c j')))
    (upd : (⟨2, ![E, W]⟩ : Shape).Idx → EReal) (upd' : (⟨2, ![E, W']⟩ : Shape).Idx → EReal)
    (hupd : ∀ (e : Fin E) (j' : Fin W'), upd' (ix2 e j') = upd (ix2 e (c j')))
    (idx : IVec ⟨2, ![E, 1]⟩ w) (n : Fin N) (j' : Fin W') :
    Ideal.hostScatterAdd d' x' idx upd' (ix2 n j') = Ideal.hostScatterAdd d x idx upd (ix2 n (c j')) := by
  rw [hostScatterAdd_apply d' huw' hiw' hsd' hivd' x' idx upd' n j',
    hostScatterAdd_apply d huw hiw hsd hivd x idx upd n (c j'), hx n j']
  congr 1
  exact Finset.sum_congr rfl fun e _ => hupd e j'

/-- (S2), the columns a contiguous run: if `x'[n, j'] = x[n, off + j']` and `upd'[e, j'] = upd[e, off + j']`, then the
    scatter-add of `upd'` into `x'` at (n, j') is the scatter-add of `upd` into `x` at (n, off + j'). -/
theorem hostScatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : (⟨2, ![N, W]⟩ : Shape).Idx → EReal) (x' : (⟨2, ![N, W']⟩ : Shape).Idx → EReal)
    (hx : ∀ (n : Fin N) (j' : Fin W'), x' (ix2 n j') = x (ix2 n ⟨off + j'.val, by omega⟩))
    (upd : (⟨2, ![E, W]⟩ : Shape).Idx → EReal) (upd' : (⟨2, ![E, W']⟩ : Shape).Idx → EReal)
    (hupd : ∀ (e : Fin E) (j' : Fin W'), upd' (ix2 e j') = upd (ix2 e ⟨off + j'.val, by omega⟩))
    (idx : IVec ⟨2, ![E, 1]⟩ w) (n : Fin N) (j' : Fin W') :
    Ideal.hostScatterAdd d' x' idx upd' (ix2 n j') = Ideal.hostScatterAdd d x idx upd (ix2 n ⟨off + j'.val, by omega⟩) :=
  hostScatterAdd_cols d huw hiw hsd hivd d' huw' hiw' hsd' hivd' (fun j' => ⟨off + j'.val, by omega⟩) x x' hx upd upd' hupd
    idx n j'

end Scatter

/-! ## The same, stated on the host operation `Host.scatterAdd` at the ideal instance -/

section HostForm
variable {N E W w : Nat} {φ : FTy}

/-- At the ideal instance the host's scatter-add is the exact sum `Ideal.hostScatterAdd`, by definition. -/
theorem scatterAdd_eq {s si u : Shape} (d : ScatterDims s si u) (x : FVec Ideal s φ) (idx : IVec si w)
    (upd : FVec Ideal u φ) : Host.scatterAdd d x idx upd = Ideal.hostScatterAdd d x idx upd := rfl

/-- (S1) on `Host.scatterAdd`: the element (n, j) of the result is the table's plus the sum of the updates' elements
    (e, j) over the update rows `e` whose row number `idx[e, 0]`, read signed, is `n`. -/
theorem scatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : FVec Ideal ⟨2, ![N, W]⟩ φ) (idx : IVec ⟨2, ![E, 1]⟩ w) (upd : FVec Ideal ⟨2, ![E, W]⟩ φ) (n : Fin N) (j : Fin W) :
    Host.scatterAdd d x idx upd (ix2 n j) =
      x (ix2 n j) + ∑ e ∈ Finset.univ.filter (fun e : Fin E => (idx (ix2 e 0)).toInt = (n.val : Int)), upd (ix2 e j) :=
  hostScatterAdd_apply d huw hiw hsd hivd x idx upd n j

/-- (S2) on `Host.scatterAdd`, any choice of columns `c`. -/
theorem scatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : FVec Ideal ⟨2, ![N, W]⟩ φ) (x' : FVec Ideal ⟨2, ![N, W']⟩ φ)
    (hx : ∀ (n : Fin N) (j' : Fin W'), x' (ix2 n j') = x (ix2 n (c j')))
    (upd : FVec Ideal ⟨2, ![E, W]⟩ φ) (upd' : FVec Ideal ⟨2, ![E, W']⟩ φ)
    (hupd : ∀ (e : Fin E) (j' : Fin W'), upd' (ix2 e j') = upd (ix2 e (c j')))
    (idx : IVec ⟨2, ![E, 1]⟩ w) (n : Fin N) (j' : Fin W') :
    Host.scatterAdd d' x' idx upd' (ix2 n j') = Host.scatterAdd d x idx upd (ix2 n (c j')) :=
  hostScatterAdd_cols d huw hiw hsd hivd d' huw' hiw' hsd' hivd' c x x' hx upd upd' hupd idx n j'

/-- (S2) on `Host.scatterAdd`, the columns the run that starts at `off`. -/
theorem scatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : FVec Ideal ⟨2, ![N, W]⟩ φ) (x' : FVec Ideal ⟨2, ![N, W']⟩ φ)
    (hx : ∀ (n : Fin N) (j' : Fin W'), x' (ix2 n j') = x (ix2 n ⟨off + j'.val, by omega⟩))
    (upd : FVec Ideal ⟨2, ![E, W]⟩ φ) (upd' : FVec Ideal ⟨2, ![E, W']⟩ φ)
    (hupd : ∀ (e : Fin E) (j' : Fin W'), upd' (ix2 e j') = upd (ix2 e ⟨off + j'.val, by omega⟩))
    (idx : IVec ⟨2, ![E, 1]⟩ w) (n : Fin N) (j' : Fin W') :
    Host.scatterAdd d' x' idx upd' (ix2 n j') = Host.scatterAdd d x idx upd (ix2 n ⟨off + j'.val, by omega⟩) :=
  hostScatterAdd_cols_offset d huw hiw hsd hivd d' huw' hiw' hsd' hivd' off hW x x' hx upd upd' hupd idx n j'

end HostForm

end Cert.Bridge.GS
-- ==== Proof.PoolBridge.lean ====
/-
  SEGMENT SUMS AS A ONE-HOT MATRIX PRODUCT.

  A column batch : [50000] of 32-bit graph numbers. The one-hot matrix OH : [50000, 64] has OH(n, g) = 1.0 when
  batch[n] is the word of g and 0.0 otherwise (the conversion to float of the equality mask of two broadcasts: the
  column along the rows, the iota 0 … 63 along the columns). For a table H : [50000, 128] of extended reals,

      ∑ n, OH(n, g) * H(n, d)   =   0 + ∑ over the n with batch[n] (read signed) = g of H(n, d),

  the right side being the scatter-add of the rows of H into a zero table [64, 128] at the row numbers batch, read at
  (g, d). The proof is term by term: 1 * h = h and 0 * h = 0 hold for every extended real (the infinities included),
  a sum over a filter is a sum of if-then-else, and a word equals the word of g < 64 exactly when it reads g signed.
-/
import proofs.«427407_j28939489640781_1_alg».proof.KernelIdeal
import proofs.«427407_j28939489640781_1_alg».proof.ReferenceIdeal
import proofs.«427407_j28939489640781_1_alg».proof.Proof.LibGatherScatter
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.IdealHost
import Idealize.ShloMosaic.PureOps.Ideal.Laws

open scoped BigOperators

noncomputable section

namespace Cert.Bridge.Pool

open Idealize.ShloMosaic Idealize.ShloMosaic.ValueIdx

variable [Cert.KernelIdeal.Facts₀] [Cert.ReferenceIdeal.Facts₀]

/-- THE ONE-HOT MATRIX of a column of graph numbers: the equality mask of the column broadcast along the rows against
    the iota 0 … 63 broadcast along the columns, converted to float (a set bit is 1.0, a clear bit 0.0). -/
def oneHot (batch : (⟨Cert.KernelIdeal.S50000, .i32⟩ : BufTy).Contents (Elt Ideal)) :
    FVec Ideal Cert.KernelIdeal.S50000x64 .f32 :=
  uitofp .f32
    (cmpi .eq
      (broadcastInDim Cert.KernelIdeal.S50000x64 ![0, 1] Cert.KernelIdeal.Facts₀.bcast_S50000x1_S50000x64_0_1
        (broadcastInDim Cert.KernelIdeal.S50000x1 ![0] Cert.KernelIdeal.Facts₀.bcast_S50000_S50000x1_0 batch))
      (broadcastInDim Cert.KernelIdeal.S50000x64 ![0, 1] Cert.KernelIdeal.Facts₀.bcast_S1x64_S50000x64_0_1
        (broadcastInDim Cert.KernelIdeal.S1x64 ![1] Cert.KernelIdeal.Facts₀.bcast_S64_S1x64_1
          (iotaInDim Cert.KernelIdeal.S64 32 0))))

/-- A 32-bit word is the word of a number below 2³¹ exactly when it reads that number signed. -/
theorem eq_ofNat_iff_toInt (a : BitVec 32) (g : Nat) (hg : g < 2 ^ 31) :
    a = BitVec.ofNat 32 g ↔ a.toInt = (g : Int) := by
  rw [← BitVec.toInt_inj, StableHlo.Predicate.toInt_ofNat_small g hg]

/-- The rank-1 index at a coordinate, in its two spellings. -/
theorem ofFin_eq_ix1 {n : Nat} (k : Fin n) : Shape.Idx.ofFin k = ix1 k := by
  funext a
  match a with
  | ⟨0, _⟩ => exact Fin.ext rfl

/-- The index (p, 0) of a one-column table, in its two spellings. -/
theorem ixP_eq_ix2 {n : Nat} (p : Fin n) : StableHlo.Predicate.ixP p = ix2 p (0 : Fin 1) := by
  funext a
  match a with
  | ⟨0, _⟩ => rfl
  | ⟨1, _⟩ => rfl

/-- The column broadcast along the rows, read at (n, g), is the column at n. -/
theorem bcast_batch_apply (batch : (⟨Cert.KernelIdeal.S50000, .i32⟩ : BufTy).Contents (Elt Ideal)) (n : Fin 50000) (g : Fin 64) :
    broadcastInDim Cert.KernelIdeal.S50000x64 ![0, 1] Cert.KernelIdeal.Facts₀.bcast_S50000x1_S50000x64_0_1
        (broadcastInDim Cert.KernelIdeal.S50000x1 ![0] Cert.KernelIdeal.Facts₀.bcast_S50000_S50000x1_0 batch) (ix2 n g)
      = batch (ix1 n) :=
  (StableHlo.Predicate.bcast_rows _ _ batch n g).trans (congrArg batch (ofFin_eq_ix1 n))

/-- The iota broadcast along the columns, read at (n, g), is the word of g. -/
theorem bcast_iota_apply (n : Fin 50000) (g : Fin 64) :
    broadcastInDim Cert.KernelIdeal.S50000x64 ![0, 1] Cert.KernelIdeal.Facts₀.bcast_S1x64_S50000x64_0_1
        (broadcastInDim Cert.KernelIdeal.S1x64 ![1] Cert.KernelIdeal.Facts₀.bcast_S64_S1x64_1
          (iotaInDim Cert.KernelIdeal.S64 32 0)) (ix2 n g)
      = BitVec.ofNat 32 g.val :=
  StableHlo.Predicate.bcast_cols _ _ (iotaInDim Cert.KernelIdeal.S64 32 0) n g

/-- THE ONE-HOT MATRIX AT (n, g): one when the graph number of row n, read signed, is g, else zero. -/
theorem oneHot_apply (batch : (⟨Cert.KernelIdeal.S50000, .i32⟩ : BufTy).Contents (Elt Ideal)) (n : Fin 50000) (g : Fin 64) :
    (oneHot batch : Cert.KernelIdeal.S50000x64.Idx → EReal) (ix2 n g)
      = if (batch (ix1 n)).toInt = (g.val : Int) then 1 else 0 := by
  have hg : g.val < 2 ^ 31 := by have := g.isLt; omega
  show (((IntOp.cmpi .eq
      (broadcastInDim Cert.KernelIdeal.S50000x64 ![0, 1] Cert.KernelIdeal.Facts₀.bcast_S50000x1_S50000x64_0_1
        (broadcastInDim Cert.KernelIdeal.S50000x1 ![0] Cert.KernelIdeal.Facts₀.bcast_S50000_S50000x1_0 batch) (ix2 n g))
      (broadcastInDim Cert.KernelIdeal.S50000x64 ![0, 1] Cert.KernelIdeal.Facts₀.bcast_S1x64_S50000x64_0_1
        (broadcastInDim Cert.KernelIdeal.S1x64 ![1] Cert.KernelIdeal.Facts₀.bcast_S64_S1x64_1
          (iotaInDim Cert.KernelIdeal.S64 32 0)) (ix2 n g))).toNat : ℝ) : EReal) = _
  rw [bcast_batch_apply, bcast_iota_apply]
  by_cases h : batch (ix1 n) = BitVec.ofNat 32 g.val
  · rw [if_pos ((eq_ofNat_iff_toInt _ _ hg).mp h), StableHlo.Predicate.cmpi_eq_iff.mpr h]
    simp
  · rw [if_neg (fun h' => h ((eq_ofNat_iff_toInt _ _ hg).mpr h'))]
    have h0 : IntOp.cmpi .eq (batch (ix1 n)) (BitVec.ofNat 32 g.val) = 0#1 := by
      rcases BitVec.eq_zero_or_eq_one (IntOp.cmpi .eq (batch (ix1 n)) (BitVec.ofNat 32 g.val)) with h0 | h1
      · exact h0
      · exact absurd (StableHlo.Predicate.cmpi_eq_iff.mp h1) h
    rw [h0]
    simp

/-- SEGMENT SUMS: the one-hot matrix product at (g, d) is the scatter-add of the rows of H into a zero table at the row
    numbers batch, read at (g, d). -/
theorem sum_oneHot_eq_scatter (batch : (⟨Cert.KernelIdeal.S50000, .i32⟩ : BufTy).Contents (Elt Ideal))
    (H : FVec Ideal Cert.ReferenceIdeal.S50000x128 .f32) (g : Fin 64) (d : Fin 128) :
    (∑ n : Fin 50000, (oneHot batch : Cert.KernelIdeal.S50000x64.Idx → EReal) (ix2 n g) * H (ix2 n d))
      = Host.scatterAdd Cert.ReferenceIdeal.scatter_S64x128_S50000x1_S50000x128_1_0_0_1
          (broadcastInDim Cert.ReferenceIdeal.S64x128 ![] Cert.ReferenceIdeal.Facts₀.bcast_S_S64x128
            (constant (F := Ideal) Cert.ReferenceIdeal.S_ .f32 0x00000000#32))
          (broadcastInDim Cert.ReferenceIdeal.S50000x1 ![0] Cert.ReferenceIdeal.Facts₀.bcast_S50000_S50000x1_0 batch)
          H (ix2 g d) := by
  rw [GS.scatterAdd_apply Cert.ReferenceIdeal.scatter_S64x128_S50000x1_S50000x128_1_0_0_1 rfl rfl rfl rfl,
    broadcastInDim_scalar_apply, constant_apply, Ideal.ofBits_zero_f32, zero_add, Finset.sum_filter]
  refine Finset.sum_congr rfl fun n _ => ?_
  have hidx : broadcastInDim Cert.ReferenceIdeal.S50000x1 ![0] Cert.ReferenceIdeal.Facts₀.bcast_S50000_S50000x1_0 batch (ix2 n 0)
      = batch (ix1 n) :=
    (congrArg _ (ixP_eq_ix2 n)).symm.trans
      ((StableHlo.Predicate.bcast_col1 _ batch n).trans (congrArg batch (ofFin_eq_ix1 n)))
  rw [oneHot_apply, hidx]
  by_cases h : (batch (ix1 n)).toInt = (g.val : Int)
  · rw [if_pos h, if_pos h, one_mul]
  · rw [if_neg h, if_neg h, zero_mul]

end Cert.Bridge.Pool

end
-- ==== Proof.Bridge.Conv2.lean ====
/-
  The second layer's host operations, the one-hot matrix of the graph numbers, and the last stretch (counts and
  quotient): each is the reference's operations on the same operands, given what the regions before them leave.
-/
import proofs.«427407_j28939489640781_1_alg».proof.Proof.Bridge.Keep
import proofs.«427407_j28939489640781_1_alg».proof.Proof.PoolBridge

set_option maxRecDepth 16384

noncomputable section

namespace Cert.Bridge

open Idealize.ShloMosaic Idealize.ShloMosaic.TcCoe Idealize.SL.Sem
open Cert.KernelIdeal Cert.KernelIdeal.Gen Cert.KernelIdeal.Run

variable (m : (ℓ : Loc nD τ sig) → Buf (Elt Ideal) ℓ) (c : Dev nD)
/-! ## The second convolution and the one-hot matrix -/

theorem W5_src : W5 (F := Ideal) m c (Proc.devRef .tc main_v1) = Cert.ReferenceIdeal.Read.val_main_v50 (F := Ideal) (a1 m c) :=
  (k15 m c main_v1 (by decide) (by decide) (by decide) (by decide)).trans (W1_src m c)
theorem W5_dst : W5 (F := Ideal) m c (Proc.devRef .tc main_v3) = Cert.ReferenceIdeal.Read.val_main_v52 (F := Ideal) (a1 m c) :=
  (k15 m c main_v3 (by decide) (by decide) (by decide) (by decide)).trans (W1_dst m c)
theorem W5_norm : W5 (F := Ideal) m c (Proc.devRef .tc main_v25) = Cert.ReferenceIdeal.Read.val_main_v75 (F := Ideal) (a1 m c) :=
  (k15 m c main_v25 (by decide) (by decide) (by decide) (by decide)).trans (W1_norm m c)
theorem W5_self : W5 (F := Ideal) m c (Proc.devRef .tc main_v26) = Cert.ReferenceIdeal.Read.val_main_v89 (F := Ideal) (a1 m c) :=
  (k15 m c main_v26 (by decide) (by decide) (by decide) (by decide)).trans (W1_self m c)
theorem W5_bias : W5 (F := Ideal) m c (Proc.devRef .tc main_arg6) = a6 m c :=
  (k15 m c main_arg6 (by decide) (by decide) (by decide) (by decide)).trans (k01 m c main_arg6 (by decide))
theorem W5_batch : W5 (F := Ideal) m c (Proc.devRef .tc main_arg2) = a2 m c :=
  (k15 m c main_arg2 (by decide) (by decide) (by decide) (by decide)).trans (k01 m c main_arg2 (by decide))

set_option maxHeartbeats 8000000 in
theorem W6_conv (hlin : W5 (F := Ideal) m c (Proc.devRef .tc main_v49) = Cert.ReferenceIdeal.Read.val_main_v53 (F := Ideal) (a0 m c) (a1 m c) (a3 m c) (a4 m c) (a5 m c)) :
    W6 (F := Ideal) m c (Proc.devRef .tc main_v69) = Cert.ReferenceIdeal.Read.val_main_v96 (F := Ideal) (a0 m c) (a1 m c) (a3 m c) (a4 m c) (a5 m c) (a6 m c) := by
  show StableHlo.after hostOps2 (W5 m c) (Proc.devRef .tc main_v69) = _
  after_results_simp
  rw [hlin, W5_src, W5_dst, W5_norm, W5_self, W5_bias]
  rfl

set_option maxHeartbeats 8000000 in
theorem W6_hot : W6 (F := Ideal) m c (Proc.devRef .tc main_v76) = Cert.Bridge.Pool.oneHot (a2 m c) := by
  show StableHlo.after hostOps2 (W5 m c) (Proc.devRef .tc main_v76) = _
  after_results_simp
  rw [W5_batch]
  rfl

/-! ## The last stretch -/

theorem W7_batch : W7 (F := Ideal) m c (Proc.devRef .tc main_arg2) = a2 m c :=
  (k67 m c main_arg2 (by decide)).trans ((k56 m c main_arg2 (by decide)).trans (W5_batch m c))

set_option maxHeartbeats 8000000 in
theorem W8_out (hpool : W7 (F := Ideal) m c (Proc.devRef .tc main_v77)
      = Cert.ReferenceIdeal.Read.val_main_v99 (F := Ideal) (a0 m c) (a1 m c) (a2 m c) (a3 m c) (a4 m c) (a5 m c) (a6 m c)) :
    W8 (F := Ideal) m c (Proc.devRef .tc main_v86)
      = Cert.ReferenceIdeal.Read.val_main_v108 (F := Ideal) (a0 m c) (a1 m c) (a2 m c) (a3 m c) (a4 m c) (a5 m c) (a6 m c) := by
  show StableHlo.after hostOps3 (W7 m c) (Proc.devRef .tc main_v86) = _
  after_results_simp
  rw [hpool, W7_batch]
  rfl

end Cert.Bridge

end
-- ==== Proof.KI.PoolValue.lean ====
/-
  The pooling region's value at the ideal instance. One accumulation step adds, at entry (g, d), the sum over the
  block's five thousand rows of one-hot(r, g) * feature(r, d); from zero, ten steps over ten consecutive row blocks
  give the sum over all fifty thousand rows; the one write-back, at the last point, puts that accumulator into the
  output array, whose one block is the whole array. So the output array after the region is, entry by entry, the
  transposed one-hot matrix times the feature matrix.
-/
import proofs.«427407_j28939489640781_1_alg».proof.Proof.KI.Pool
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Data.Fintype.BigOperators

set_option maxRecDepth 16384

noncomputable section

namespace Cert.KernelIdeal.PoolValue

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

theorem lhs_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
theorem lhs_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
theorem rhs_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

/-- One accumulation step at an entry: the accumulator there plus the block's column-by-column product summed over the block's rows. -/
theorem stepAcc_apply (x0 : Vec Ideal S5000x64 .f32) (x1 : Vec Ideal S5000x128 .f32) (a : Vec Ideal S64x128 .f32)
    (g : Fin 64) (d : Fin 128) :
    (Pool.stepAcc (F := Ideal) x0 x1 a : S64x128.Idx → EReal) (ix2 g d)
      = (a : S64x128.Idx → EReal) (ix2 g d) + ∑ r : Fin 5000, (x0 : S5000x64.Idx → EReal) (ix2 r g) * (x1 : S5000x128.Idx → EReal) (ix2 r d) := by
  unfold Pool.stepAcc k2_pay2
  simp only [shapeCast_self]
  rw [addf_apply]
  congr 1
  simp only [matmul]
  rw [Ideal.matmul_constant_zero_apply, ← Equiv.sum_comp (contrEquiv1 dot_S5000x64_S5000x128_S64x128_0_0_1_1_n_n 5000 rfl rfl).symm]
  refine Finset.sum_congr rfl fun k _ => ?_
  have hk := contrEquiv1_symm_val dot_S5000x64_S5000x128_S64x128_0_0_1_1_n_n 5000 rfl rfl k
  have el : dot_S5000x64_S5000x128_S64x128_0_0_1_1_n_n.lhsIdx (ix2 g d) ((contrEquiv1 dot_S5000x64_S5000x128_S64x128_0_0_1_1_n_n 5000 rfl rfl).symm k) = ix2 k g := funext fun b => Fin.ext (by
    match b with
    | ⟨0, _⟩ => exact (lhs_0 _ _).trans hk
    | ⟨1, _⟩ => exact lhs_1 _ _)
  have er : dot_S5000x64_S5000x128_S64x128_0_0_1_1_n_n.rhsIdx (ix2 g d) ((contrEquiv1 dot_S5000x64_S5000x128_S64x128_0_0_1_1_n_n 5000 rfl rfl).symm k) = ix2 k d := funext fun b => Fin.ext (by
    match b with
    | ⟨0, _⟩ => exact (rhs_0 _ _).trans hk
    | ⟨1, _⟩ => exact rhs_1 _ _)
  rw [el, er]
  rfl

theorem zeroAcc_apply (j : S64x128.Idx) : (Pool.zeroAcc (F := Ideal) : S64x128.Idx → EReal) j = 0 := by
  unfold Pool.zeroAcc k2_pay1
  simp only [shapeCast_self]
  exact Ideal.ofBits_zero_f32

variable (V : (c : Dev nD) → (b : Ref sig .tc) → Buf (Elt Ideal) ((c : Thread nD τ).loc b))

/-- The three index maps over the grid: the inputs' blocks move down the rows with the point, the output's block stays. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0 :=
  (by decide +kernel : ∀ t : Fin grid2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0)

theorem lt_ten (t : Fin cfg2.N) : t.val < 10 := lt_of_lt_of_eq t.isLt (show cfg2.N = 10 from N_2)

/-- Row `r` of the block at point `t` is row `5000 t + r` of the array. -/
abbrev row (t : Fin cfg2.N) (r : Fin 5000) : Fin 50000 :=
  ⟨5000 * t.val + r.val, by have := lt_ten t; have := r.isLt; omega⟩

theorem hot_apply (c : Dev nD) (t : Fin cfg2.N) (r : Fin 5000) (g : Fin 64) :
    (Pool.hot V c t : S5000x64.Idx → EReal) (ix2 r g) = (V c main_v76 : S50000x64.Idx → EReal) (ix2 (row t r) g) := by
  show Pool.iblk V c 0 t (ix2 r g) = _
  unfold Pool.iblk
  rw [View.read_apply]
  show V c main_v76 (((cfg2.win 0).blk t).view.emb (ix2 r g)) = V c main_v76 (ix2 (row t r) g)
  refine congrArg _ (funext fun a => Fin.ext ?_)
  match a with
  | ⟨0, _⟩ => show win2_0.index t 0 * 5000 + 1 * r.val = 5000 * t.val + r.val; rw [(idx_facts t).1]; omega
  | ⟨1, _⟩ => show win2_0.index t 1 * 64 + 1 * g.val = g.val; rw [(idx_facts t).2.1]; omega

theorem feat_apply (c : Dev nD) (t : Fin cfg2.N) (r : Fin 5000) (d : Fin 128) :
    (Pool.feat V c t : S5000x128.Idx → EReal) (ix2 r d) = (V c main_v69 : S50000x128.Idx → EReal) (ix2 (row t r) d) := by
  show Pool.iblk V c 1 t (ix2 r d) = _
  unfold Pool.iblk
  rw [View.read_apply]
  show V c main_v69 (((cfg2.win 1).blk t).view.emb (ix2 r d)) = V c main_v69 (ix2 (row t r) d)
  refine congrArg _ (funext fun a => Fin.ext ?_)
  match a with
  | ⟨0, _⟩ => show win2_1.index t 0 * 5000 + 1 * r.val = 5000 * t.val + r.val; rw [(idx_facts t).2.2.1]; omega
  | ⟨1, _⟩ => show win2_1.index t 1 * 128 + 1 * d.val = d.val; rw [(idx_facts t).2.2.2.1]; omega

/-- The one write-back, at the last point, writes the accumulator as the last point leaves it; its block is the whole array. -/
theorem flushed_eq (c : Dev nD) (t : Fin cfg2.N) (hf : (cfg2.win 2).flush t = true) :
    (Pool.dat V c).flushed 2 t = ((cfg2.win 2).blk t).view.read (Elt Ideal) (Pool.accAt V c 9) := by
  have h9 : t.val = 9 := by have := (flush2_2 t).mp hf; have := lt_ten t; omega
  show (cfg2.win 2).cut (grid2.coords t) ((Pool.dat V c).after 2 t) = _
  rw [Pool.after_2, h9]
  have hz' : (fun a => win2_2.index t a * main_v77.ty.shape.size a) = fun _ => 0 := funext fun a => by
    match a with
    | ⟨0, _⟩ => show win2_2.index t 0 * 64 = 0; rw [(idx_facts t).2.2.2.2.1]
    | ⟨1, _⟩ => show win2_2.index t 1 * 128 = 0; rw [(idx_facts t).2.2.2.2.2]
  exact (Memref.read_access_unit_zero (Elt Ideal) main_v77 hz' (fun a => by rw [congrFun hz' a]; simp) (Pool.accAt V c 9)).symm

theorem cover (i : S64x128.Idx) : ∃ t : Fin cfg2.N, (cfg2.win 2).flush t = true ∧ i ∈ ((cfg2.win 2).blk t).view.set := by
  have h0 : (i 0 : Nat) < 64 := (i 0).isLt
  have h1 : (i 1 : Nat) < 128 := (i 1).isLt
  refine ⟨Pool.pt 9, (flush2_2 _).mpr rfl, ?_⟩
  show i ∈ ((View.whole main_v77).slice (win2_2.rect (Pool.pt 9))).set
  rw [View.set_slice_whole, Rect.mem_set_unit]
  intro a
  match a with
  | ⟨0, _⟩ =>
    show win2_2.index (Pool.pt 9) 0 * 64 ≤ (i 0 : Nat) ∧ (i 0 : Nat) < win2_2.index (Pool.pt 9) 0 * 64 + 64
    rw [(idx_facts _).2.2.2.2.1]; omega
  | ⟨1, _⟩ =>
    show win2_2.index (Pool.pt 9) 1 * 128 ≤ (i 1 : Nat) ∧ (i 1 : Nat) < win2_2.index (Pool.pt 9) 1 * 128 + 128
    rw [(idx_facts _).2.2.2.2.2]; omega

/-- After the region the output array holds the accumulator as the last point leaves it. -/
theorem pool_arr (c : Dev nD) : (Pool.dat V c).arrAt 2 cfg2.N = Pool.accAt V c 9 :=
  (Pool.dat V c).arrAt_eq_of_cover 2 (Pool.accAt V c 9) (flushed_eq V c) cover

/-! ## Ten runs of five thousand rows are the fifty thousand rows -/

/-- The one-hot matrix and the node features as the region finds them, and the output array after the region, read
    as functions into the extended reals. -/
abbrev oneHot (c : Dev nD) : S50000x64.Idx → EReal := V c main_v76
abbrev feats (c : Dev nD) : S50000x128.Idx → EReal := V c main_v69
abbrev pooled (c : Dev nD) : S64x128.Idx → EReal := (Pool.dat (F := Ideal) V c).arrAt 2 cfg2.N

/-- The product summed at entry (g, d), as a function of the row number (zero past the last row: never read). -/
def term (c : Dev nD) (g : Fin 64) (d : Fin 128) (k : ℕ) : EReal :=
  if h : k < 50000 then oneHot V c (ix2 ⟨k, h⟩ g) * feats V c (ix2 ⟨k, h⟩ d) else 0

/-- A block's sum over its rows is the run of five thousand terms starting at row 5000 t. -/
theorem block_sum (c : Dev nD) (t : Fin cfg2.N) (g : Fin 64) (d : Fin 128) :
    ∑ r : Fin 5000, (Pool.hot V c t : S5000x64.Idx → EReal) (ix2 r g) * (Pool.feat V c t : S5000x128.Idx → EReal) (ix2 r d)
      = ∑ r ∈ Finset.range 5000, term V c g d (5000 * t.val + r) := by
  rw [← Fin.sum_univ_eq_sum_range (fun r => term V c g d (5000 * t.val + r)) 5000]
  refine Finset.sum_congr rfl fun r _ => ?_
  rw [hot_apply, feat_apply]
  unfold term
  rw [dif_pos (row t r).isLt]

/-- The first 5000 (n + 1) terms are the first 5000 n and then one more run. -/
theorem sum_runs (f : ℕ → EReal) (n : ℕ) :
    ∑ k ∈ Finset.range (5000 * (n + 1)), f k
      = ∑ k ∈ Finset.range (5000 * n), f k + ∑ r ∈ Finset.range 5000, f (5000 * n + r) := by
  rw [show 5000 * (n + 1) = 5000 * n + 5000 from by ring, Finset.sum_range_add]

/-- After point n the accumulator holds, at (g, d), the sum over the rows of the first n + 1 blocks. -/
theorem accAt_apply (c : Dev nD) (g : Fin 64) (d : Fin 128) : ∀ n : ℕ, n < 10 →
    (Pool.accAt V c n : S64x128.Idx → EReal) (ix2 g d) = ∑ k ∈ Finset.range (5000 * (n + 1)), term V c g d k
  | 0, _ => by
    show (Pool.stepAcc (Pool.hot V c (Pool.pt 0)) (Pool.feat V c (Pool.pt 0)) (Pool.zeroAcc (F := Ideal)) : S64x128.Idx → EReal) (ix2 g d) = _
    rw [stepAcc_apply, zeroAcc_apply, zero_add, block_sum, sum_runs, Finset.range_zero, Finset.sum_empty, zero_add]
    rfl
  | n + 1, h => by
    show (Pool.stepAcc (Pool.hot V c (Pool.pt (n + 1))) (Pool.feat V c (Pool.pt (n + 1))) (Pool.accAt V c n) : S64x128.Idx → EReal) (ix2 g d) = _
    have hp : (Pool.pt (n + 1)).val = n + 1 := Nat.mod_eq_of_lt h
    rw [stepAcc_apply, accAt_apply c g d n (by omega), block_sum, hp, ← sum_runs]

/-- The output array after the region: at (g, d), the sum over all rows n of one-hot(n, g) * feature(n, d). -/
theorem pool_final (c : Dev nD) (g : Fin 64) (d : Fin 128) :
    pooled V c (ix2 g d) = ∑ n : Fin 50000, oneHot V c (ix2 n g) * feats V c (ix2 n d) := by
  show (Pool.dat (F := Ideal) V c).arrAt 2 cfg2.N (ix2 g d) = _
  rw [pool_arr]
  refine (accAt_apply V c g d 9 (by decide)).trans ?_
  show ∑ k ∈ Finset.range 50000, term V c g d k = _
  rw [← Fin.sum_univ_eq_sum_range (fun k => term V c g d k) 50000]
  refine Finset.sum_congr rfl fun n _ => ?_
  unfold term
  rw [dif_pos n.isLt]

/-- The same for the whole array at once. -/
theorem pool_final_fun (c : Dev nD) :
    pooled V c = fun j => ∑ n : Fin 50000, oneHot V c (ix2 n (j 0)) * feats V c (ix2 n (j 1)) := by
  funext j
  obtain ⟨g, d, rfl⟩ : ∃ (g : Fin 64) (d : Fin 128), j = ix2 g d := ⟨j 0, j 1, eq_ix2 j⟩
  exact pool_final V c g d

end Cert.KernelIdeal.PoolValue

end
-- ==== Proof.Bridge.Join.lean ====
/-
  The two idealized programs compute one function. The kernel program's host operations are the reference's, operation
  by operation; its three kernel regions stand where the reference has a matrix product, a second matrix product, and a
  scatter-add of feature rows at their graph numbers (the transposed one-hot matrix times the features is, for each
  graph, the sum of its nodes' feature rows). Chaining the stretches and regions in program order, the kernel program's
  result buffer holds the reference's result term of the same arguments.
-/
import proofs.«427407_j28939489640781_1_alg».proof.Proof.Bridge.Conv1
import proofs.«427407_j28939489640781_1_alg».proof.Proof.Bridge.Conv2
import proofs.«427407_j28939489640781_1_alg».proof.Proof.KI.PoolValue

set_option maxRecDepth 16384

noncomputable section

namespace Cert.Bridge

open Idealize.ShloMosaic Idealize.ShloMosaic.TcCoe Idealize.SL.Sem
open Cert.KernelIdeal Cert.KernelIdeal.Gen Cert.KernelIdeal.Run

variable (m : (ℓ : Loc nD τ sig) → Buf (Elt Ideal) ℓ) (c : Dev nD)

/-- The second linear transform, on the first convolution's rectified output. -/
theorem lin1_eq : W5 (F := Ideal) m c (Proc.devRef .tc main_v49)
    = Cert.ReferenceIdeal.Read.val_main_v53 (F := Ideal) (a0 m c) (a1 m c) (a3 m c) (a4 m c) (a5 m c) := by
  refine (show W5 m c (Proc.devRef .tc main_v49) = _ from W5_arr (F := Ideal) m c 2).trans ?_
  rw [LinValue.lin1_array (Run.V4 m) c]
  have e0 : Run.V4 (F := Ideal) m c main_v48 = Cert.ReferenceIdeal.Read.val_main_v48 (F := Ideal) (a0 m c) (a1 m c) (a3 m c) (a4 m c) := W4_relu m c (lin0_eq m c)
  have e5 : Run.V4 (F := Ideal) m c main_arg5 = a5 m c :=
    (k14 m c main_arg5 (by decide) (by decide) (by decide)).trans (k01 m c main_arg5 (by decide))
  rw [e0, e5]
  funext q
  rw [Cert.ReferenceIdeal.Read.val_main_v53_apply]
  show LinValue.prodAt _ (a5 m c) ⟨(q 0).val, (q 0).isLt⟩ ⟨(q 1).val, (q 1).isLt⟩ = _
  rw [LinValue.prodAt_eq]
  refine Finset.sum_congr rfl fun k _ => ?_
  rw [ix2_lidx, ix2_ridx]

/-- The pooling: the transposed one-hot matrix times the features is the reference's scatter-add of the feature rows into
    zeros at the rows' graph numbers. -/
theorem pool_eq : W7 (F := Ideal) m c (Proc.devRef .tc main_v77)
    = Cert.ReferenceIdeal.Read.val_main_v99 (F := Ideal) (a0 m c) (a1 m c) (a2 m c) (a3 m c) (a4 m c) (a5 m c) (a6 m c) := by
  refine (show W7 m c (Proc.devRef .tc main_v77) = _ from W7_arr (F := Ideal) m c 2).trans ?_
  refine (PoolValue.pool_final_fun (Run.V6 m) c).trans ?_
  have eh : PoolValue.oneHot (Run.V6 (F := Ideal) m) c = Cert.Bridge.Pool.oneHot (a2 m c) := W6_hot m c
  have ef : PoolValue.feats (Run.V6 (F := Ideal) m) c
      = Cert.ReferenceIdeal.Read.val_main_v96 (F := Ideal) (a0 m c) (a1 m c) (a3 m c) (a4 m c) (a5 m c) (a6 m c) := W6_conv m c (lin1_eq m c)
  rw [eh, ef]
  funext j
  have ej : j = ValueIdx.ix2 (⟨(j 0).val, (j 0).isLt⟩ : Fin 64) (⟨(j 1).val, (j 1).isLt⟩ : Fin 128) :=
    funext fun a => Fin.ext (by match a with | ⟨0, _⟩ => rfl | ⟨1, _⟩ => rfl)
  refine (Cert.Bridge.Pool.sum_oneHot_eq_scatter (a2 m c) _ ⟨(j 0).val, (j 0).isLt⟩ ⟨(j 1).val, (j 1).isLt⟩).trans ?_
  rw [← ej]
  rfl

/-! ## The two programs' results -/

/-- The kernel program's result buffer at the end of its run holds the reference's result term of the same arguments. -/
theorem result_eq : W8 (F := Ideal) m c (Proc.devRef .tc main_v86)
    = Cert.ReferenceIdeal.Read.val_main_v108 (F := Ideal) (a0 m c) (a1 m c) (a2 m c) (a3 m c) (a4 m c) (a5 m c) (a6 m c) :=
  W8_out m c (pool_eq m c)

end Cert.Bridge

end
-- ==== Proof.lean ====
/-
  A two-layer graph convolution with mean pooling: the kernel program runs its two linear transforms as tiled matrix
  products (ten blocks of 5000 rows each against the whole 128 x 128 weights) and its pooling as the transposed one-hot
  matrix of the graph numbers times the node features, accumulated over ten blocks of 5000 nodes; the reference computes
  the same with one matrix product per layer and a scatter-add of the feature rows at their graph numbers. Everything
  else — the degrees, the symmetric normalisation, the gather of source rows, the scatter-add of messages at the
  destinations, the self loop, the bias, the rectifier, the counts and the final quotient — is the same host operations
  in both. Over the extended reals a block product with an exact zero accumulator is the exact sum, the order and the
  grouping of a sum do not matter, a one-hot factor is one or zero, and one times h is h and zero times h is zero for
  every extended real h; so no finiteness of the inputs is used.

  The three frames: each of the kernel program's regions runs to its end from the contents the items before it leave,
  and no item writes an argument array (Proof/K/Run.lean for the word-level program, Proof/KI/Run.lean for the idealized
  one, which also names the result buffer's final contents); the reference is host operations only. Nothing was
  rewritten by the idealization, so there is nothing to preserve. The two results agree by Proof/Bridge/Join.lean.
-/
import proofs.«427407_j28939489640781_1_alg».proof.Defs
import proofs.«427407_j28939489640781_1_alg».proof.Proof.Gen.Kernel
import proofs.«427407_j28939489640781_1_alg».proof.Proof.Gen.KernelIdeal
import proofs.«427407_j28939489640781_1_alg».proof.Proof.Gen.ReferenceIdeal
import proofs.«427407_j28939489640781_1_alg».proof.Proof.Gen.ReferenceIdeal.Run
import proofs.«427407_j28939489640781_1_alg».proof.Proof.Gen.ReferenceIdeal.Read
import proofs.«427407_j28939489640781_1_alg».proof.Proof.Gen.Pre_finite_inputs
import proofs.«427407_j28939489640781_1_alg».proof.Proof.K.Run
import proofs.«427407_j28939489640781_1_alg».proof.Proof.KI.Run
import proofs.«427407_j28939489640781_1_alg».proof.Proof.Bridge.Join
import Idealize.ShloMosaic.Adequacy
import Idealize.ShloMosaic.Init

noncomputable section

namespace Cert.Proof

open Idealize.ShloMosaic Idealize.SL.Sem

theorem frame_k : Cert.frame_Kernel := fun m ρ _ => Cert.Kernel.Run.frame (F := Bits) m ρ
theorem frame_ki : Cert.frame_KernelIdeal := fun m ρ _ => Cert.KernelIdeal.Run.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments the idealized kernel program ends with its result buffer at the fold of its
    items, the reference at its operations' composed term, and the two are one function of the arguments. -/
theorem algebraic : Cert.algebraic_KernelIdeal_ReferenceIdeal := by
  intro m ρ m' ρ' _ hagree
  refine ⟨_, Cert.KernelIdeal.Run.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v108_eq, (hagree c).1, (hagree c).2.1, (hagree c).2.2.1, (hagree c).2.2.2.1,
    (hagree c).2.2.2.2.1, (hagree c).2.2.2.2.2.1, (hagree c).2.2.2.2.2.2]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
